-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x80x512 : Shape := ⟨3, ![512, 80, 512]⟩
abbrev S512x80 : Shape := ⟨2, ![512, 80]⟩
abbrev S_ : Shape := ⟨0, ![]⟩

class Facts : Prop where
  bcast_S_S512x80x512 : S_.BroadcastsInDim S512x80x512 (![] : Fin 0 → Fin S512x80x512.rank)
  reducesTo_S512x80x512_S_d0_1_2 : S512x80x512.ReducesTo [0, 1, 2] S_
  h_S_ : 0 < S_.numel
  bcast_S_S512x80 : S_.BroadcastsInDim S512x80 (![] : Fin 0 → Fin S512x80.rank)
  reducesTo_S512x80_S_d0_1 : S512x80.ReducesTo [0, 1] S_

variable [Facts]

def fn {F : FTy → Type} [FloatOps F] (main_arg0 : FVec F S512x80x512 .f32) (main_arg1 : FVec F S512x80x512 .f32) (main_arg2 : IVec S512x80 32) : IVec S_ 1 :=
  let main_v0 : FVec F S512x80x512 .f32 := Host.absf main_arg0
  let main_cst : FVec F S_ .f32 := constant S_ .f32 0x7F800000#32
  let main_v1 : FVec F S512x80x512 .f32 := broadcastInDim S512x80x512 ![] bcast_S_S512x80x512 main_cst
  let main_v2 : IVec S512x80x512 1 := cmpf .olt main_v0 main_v1
  let main_c : IVec S_ 1 := constantI S_ 1 1#1
  let main_v3 : IVec S_ 1 := (fun x v => Host.reduce IntOp.andi x v reducesTo_S512x80x512_S_d0_1_2 h_S_) main_v2 main_c
  let main_v4 : FVec F S512x80x512 .f32 := Host.absf main_arg1
  let main_cst_0 : FVec F S_ .f32 := constant S_ .f32 0x7F800000#32
  let main_v5 : FVec F S512x80x512 .f32 := broadcastInDim S512x80x512 ![] bcast_S_S512x80x512 main_cst_0
  let main_v6 : IVec S512x80x512 1 := cmpf .olt main_v4 main_v5
  let main_c_1 : IVec S_ 1 := constantI S_ 1 1#1
  let main_v7 : IVec S_ 1 := (fun x v => Host.reduce IntOp.andi x v reducesTo_S512x80x512_S_d0_1_2 h_S_) main_v6 main_c_1
  let main_v8 : IVec S_ 1 := andi main_v3 main_v7
  let main_c_2 : IVec S_ 32 := constantI S_ 32 0#32
  let main_v9 : IVec S512x80 32 := broadcastInDim S512x80 ![] bcast_S_S512x80 main_c_2
  let main_v10 : IVec S512x80 1 := cmpi .eq main_arg2 main_v9
  let main_c_3 : IVec S_ 32 := constantI S_ 32 1#32
  let main_v11 : IVec S512x80 32 := broadcastInDim S512x80 ![] bcast_S_S512x80 main_c_3
  let main_v12 : IVec S512x80 1 := cmpi .eq main_arg2 main_v11
  let main_v13 : IVec S512x80 1 := ori main_v10 main_v12
  let main_c_4 : IVec S_ 1 := constantI S_ 1 1#1
  let main_v14 : IVec S_ 1 := (fun x v => Host.reduce IntOp.andi x v reducesTo_S512x80_S_d0_1 h_S_) main_v13 main_c_4
  let main_v15 : IVec S_ 1 := andi main_v8 main_v14
  main_v15
-- ==== Kernel.lean ====
abbrev S512x80x512 : Shape := ⟨3, ![512, 80, 512]⟩
abbrev S512x80 : Shape := ⟨2, ![512, 80]⟩
abbrev S80x512 : Shape := ⟨2, ![80, 512]⟩
abbrev S80x1x1 : Shape := ⟨3, ![80, 1, 1]⟩
abbrev S512x8x512 : Shape := ⟨3, ![512, 8, 512]⟩
abbrev S8x512 : Shape := ⟨2, ![8, 512]⟩
abbrev S8x1x1 : Shape := ⟨3, ![8, 1, 1]⟩
abbrev S512x512 : Shape := ⟨2, ![512, 512]⟩
abbrev S512x1x512 : Shape := ⟨3, ![512, 1, 512]⟩
abbrev S1x512 : Shape := ⟨2, ![1, 512]⟩
abbrev S512x1 : Shape := ⟨2, ![512, 1]⟩
abbrev S512 : Shape := ⟨1, ![512]⟩
abbrev S1 : Shape := ⟨1, ![1]⟩
abbrev S1x1 : Shape := ⟨2, ![1, 1]⟩
abbrev S8x1 : Shape := ⟨2, ![8, 1]⟩
abbrev S_ : Shape := ⟨0, ![]⟩

abbrev nBuf : Space → Nat
  | .hbm => 7
  | .vmem => 8
  | .smem => 0
  | _ => 0

abbrev bufTy : (tb : Table) → Fin (tcTables nBuf tb) → BufTy
  | .hbm, ⟨0, _⟩ => ⟨S512x80x512, .f32⟩
  | .hbm, ⟨1, _⟩ => ⟨S512x80x512, .f32⟩
  | .hbm, ⟨2, _⟩ => ⟨S512x80, .i32⟩
  | .hbm, ⟨3, _⟩ => ⟨S80x512, .i32⟩
  | .hbm, ⟨4, _⟩ => ⟨S80x1x1, .f32⟩
  | .hbm, ⟨5, _⟩ => ⟨S_, .f32⟩
  | .hbm, ⟨6, _⟩ => ⟨S_, .f32⟩
  | .local _ .vmem, ⟨0, _⟩ => ⟨S512x8x512, .f32⟩
  | .local _ .vmem, ⟨1, _⟩ => ⟨S512x8x512, .f32⟩
  | .local _ .vmem, ⟨2, _⟩ => ⟨S512x8x512, .f32⟩
  | .local _ .vmem, ⟨3, _⟩ => ⟨S512x8x512, .f32⟩
  | .local _ .vmem, ⟨4, _⟩ => ⟨S8x512, .i32⟩
  | .local _ .vmem, ⟨5, _⟩ => ⟨S8x512, .i32⟩
  | .local _ .vmem, ⟨6, _⟩ => ⟨S8x1x1, .f32⟩
  | .local _ .vmem, ⟨7, _⟩ => ⟨S8x1x1, .f32⟩
  | _, _ => ⟨S512x80x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S512x80_S80x512_1_0 : S512x80.Transposes [1, 0] S80x512
  iota_S512x512_d0_w32 : S512x512.Iotas .tc 32 [0]
  iota_S512x512_d1_w32 : S512x512.Iotas .tc 32 [1]
  natLt_1_32 : 1 < 32
  inb_S512x8x512_S512x1x512_0_0_0 : ∀ a, (![0, 0, 0] : Fin 3 → Nat) a + S512x1x512.size a ≤ S512x8x512.size a
  h_S512x1x512 : 0 < S512x1x512.numel
  shapeCasts_S512x1x512_S512x512 : S512x1x512.ShapeCasts S512x512
  inb_S8x512_S1x512_0_0 : ∀ a, (![0, 0] : Fin 2 → Nat) a + S1x512.size a ≤ S8x512.size a
  h_S1x512 : 0 < S1x512.numel
  shapeCasts_S1x512_S1x512 : S1x512.ShapeCasts S1x512
  transposes_S1x512_p1_0_S512x1 : S1x512.Transposes [1, 0] S512x1
  reduces_S512x512_S512 : S512x512.Reduces [1] S512
  shapeCasts_S512_S512x1 : S512.ShapeCasts S512x1
  transposes_S512x512_p1_0_S512x512 : S512x512.Transposes [1, 0] S512x512
  transposes_S512x1_p1_0_S1x512 : S512x1.Transposes [1, 0] S1x512
  broadcasts_S512x1_S512x512 : S512x1.Broadcasts S512x512
  broadcasts_S1x512_S512x512 : S1x512.Broadcasts S512x512
  reduces_S1x512_S1 : S1x512.Reduces [1] S1
  shapeCasts_S1_S1x1 : S1.ShapeCasts S1x1
  reduces_S512x1_S1 : S512x1.Reduces [0] S1
  broadcasts_S1x1_S512x512 : S1x1.Broadcasts S512x512
  inb_S512x8x512_S512x1x512_0_1_0 : ∀ a, (![0, 1, 0] : Fin 3 → Nat) a + S512x1x512.size a ≤ S512x8x512.size a
  inb_S8x512_S1x512_1_0 : ∀ a, (![1, 0] : Fin 2 → Nat) a + S1x512.size a ≤ S8x512.size a
  inb_S512x8x512_S512x1x512_0_2_0 : ∀ a, (![0, 2, 0] : Fin 3 → Nat) a + S512x1x512.size a ≤ S512x8x512.size a
  inb_S8x512_S1x512_2_0 : ∀ a, (![2, 0] : Fin 2 → Nat) a + S1x512.size a ≤ S8x512.size a
  inb_S512x8x512_S512x1x512_0_3_0 : ∀ a, (![0, 3, 0] : Fin 3 → Nat) a + S512x1x512.size a ≤ S512x8x512.size a
  inb_S8x512_S1x512_3_0 : ∀ a, (![3, 0] : Fin 2 → Nat) a + S1x512.size a ≤ S8x512.size a
  inb_S512x8x512_S512x1x512_0_4_0 : ∀ a, (![0, 4, 0] : Fin 3 → Nat) a + S512x1x512.size a ≤ S512x8x512.size a
  inb_S8x512_S1x512_4_0 : ∀ a, (![4, 0] : Fin 2 → Nat) a + S1x512.size a ≤ S8x512.size a
  inb_S512x8x512_S512x1x512_0_5_0 : ∀ a, (![0, 5, 0] : Fin 3 → Nat) a + S512x1x512.size a ≤ S512x8x512.size a
  inb_S8x512_S1x512_5_0 : ∀ a, (![5, 0] : Fin 2 → Nat) a + S1x512.size a ≤ S8x512.size a
  inb_S512x8x512_S512x1x512_0_6_0 : ∀ a, (![0, 6, 0] : Fin 3 → Nat) a + S512x1x512.size a ≤ S512x8x512.size a
  inb_S8x512_S1x512_6_0 : ∀ a, (![6, 0] : Fin 2 → Nat) a + S1x512.size a ≤ S8x512.size a
  inb_S512x8x512_S512x1x512_0_7_0 : ∀ a, (![0, 7, 0] : Fin 3 → Nat) a + S512x1x512.size a ≤ S512x8x512.size a
  inb_S8x512_S1x512_7_0 : ∀ a, (![7, 0] : Fin 2 → Nat) a + S1x512.size a ≤ S8x512.size a
  concatenates_S1x1_S1x1_S1x1_S1x1_S1x1_S1x1_S1x1_S1x1_S8x1_d0 : Shape.Concatenates [S1x1, S1x1, S1x1, S1x1, S1x1, S1x1, S1x1, S1x1] S8x1 0
  shapeCasts_S8x1_S8x1x1 : S8x1.ShapeCasts S8x1x1
  inb_S8x1x1_S8x1x1_0_0_0 : ∀ a, (![0, 0, 0] : Fin 3 → Nat) a + S8x1x1.size a ≤ S8x1x1.size a
  h_S8x1x1 : 0 < S8x1x1.numel
  reducesTo_S80x1x1_S_d0_1_2 : S80x1x1.ReducesTo [0, 1, 2] S_
  h_S_ : 0 < S_.numel
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8x512.size a ≤ S512x80x512.size a
  hwx0_0 : ∀ i : grid0.Coords, EltTy.bits .f32 = 32 ∨ (Rect.block (s := S512x80x512) S512x8x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x8x512.size a ≤ S512x80x512.size a
  hwx0_1 : ∀ i : grid0.Coords, EltTy.bits .f32 = 32 ∨ (Rect.block (s := S512x80x512) S512x8x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S80x512.size a
  hwx0_2 : ∀ i : grid0.Coords, EltTy.bits .i32 = 32 ∨ (Rect.block (s := S80x512) S8x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1x1.size a ≤ S80x1x1.size a
  hwx0_3 : ∀ i : grid0.Coords, EltTy.bits .f32 = 32 ∨ (Rect.block (s := S80x1x1) S8x1x1.size (cc0_transform_3 i) (hinb0_3 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x8x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x80x512 : Shape := ⟨3, ![512, 80, 512]⟩
abbrev S512x80 : Shape := ⟨2, ![512, 80]⟩
abbrev S80x512 : Shape := ⟨2, ![80, 512]⟩
abbrev S80x512x512 : Shape := ⟨3, ![80, 512, 512]⟩
abbrev S_ : Shape := ⟨0, ![]⟩
abbrev S80x512x1 : Shape := ⟨3, ![80, 512, 1]⟩
abbrev S80x1x512 : Shape := ⟨3, ![80, 1, 512]⟩
abbrev S512x512 : Shape := ⟨2, ![512, 512]⟩
abbrev S1x512x512 : Shape := ⟨3, ![1, 512, 512]⟩
abbrev S80 : Shape := ⟨1, ![80]⟩
abbrev S80x1x1 : Shape := ⟨3, ![80, 1, 1]⟩

abbrev nBuf : Space → Nat
  | .hbm => 144
  | .vmem => 0
  | .smem => 0
  | _ => 0

abbrev hbmTy0_0 (i : Nat) : BufTy := match i % 128 with
  | 0 => ⟨S512x80x512, .f32⟩
  | 1 => ⟨S512x80x512, .f32⟩
  | 2 => ⟨S512x80, .i32⟩
  | 3 => ⟨S80x512, .i32⟩
  | 4 => ⟨S80x512, .f32⟩
  | 5 => ⟨S80x512x512, .f32⟩
  | 6 => ⟨S80x512x512, .f32⟩
  | 7 => ⟨S80x512x512, .f32⟩
  | 8 => ⟨S_, .f32⟩
  | 9 => ⟨S80x512, .f32⟩
  | 10 => ⟨S80x512x512, .f32⟩
  | 11 => ⟨S80x512x1, .f32⟩
  | 12 => ⟨S80x1x512, .f32⟩
  | 13 => ⟨S80x512x512, .f32⟩
  | 14 => ⟨S80x512x512, .f32⟩
  | 15 => ⟨S80x512x512, .f32⟩
  | 16 => ⟨S_, .f32⟩
  | 17 => ⟨S80x512x512, .f32⟩
  | 18 => ⟨S80x512x512, .f32⟩
  | 19 => ⟨S80x512x512, .f32⟩
  | 20 => ⟨S_, .f32⟩
  | 21 => ⟨S80x512x512, .f32⟩
  | 22 => ⟨S80x512x512, .f32⟩
  | 23 => ⟨S80x512x512, .f32⟩
  | 24 => ⟨S512x512, .i32⟩
  | 25 => ⟨S512x512, .i32⟩
  | 26 => ⟨S_, .i32⟩
  | 27 => ⟨S512x512, .i32⟩
  | 28 => ⟨S512x512, .i32⟩
  | 29 => ⟨S512x512, .i1⟩
  | 30 => ⟨S512x512, .f32⟩
  | 31 => ⟨S_, .f32⟩
  | 32 => ⟨S512x512, .f32⟩
  | 33 => ⟨S512x512, .f32⟩
  | 34 => ⟨S1x512x512, .f32⟩
  | 35 => ⟨S80x512x512, .f32⟩
  | 36 => ⟨S80x512x512, .f32⟩
  | 37 => ⟨S80x512x512, .f32⟩
  | 38 => ⟨S_, .f32⟩
  | 39 => ⟨S80x512, .f32⟩
  | 40 => ⟨S80x512x512, .f32⟩
  | 41 => ⟨S80x512x1, .f32⟩
  | 42 => ⟨S80x1x512, .f32⟩
  | 43 => ⟨S80x512x512, .f32⟩
  | 44 => ⟨S80x512x512, .f32⟩
  | 45 => ⟨S80x512x512, .f32⟩
  | 46 => ⟨S_, .f32⟩
  | 47 => ⟨S80x512x512, .f32⟩
  | 48 => ⟨S80x512x512, .f32⟩
  | 49 => ⟨S80x512x512, .f32⟩
  | 50 => ⟨S_, .f32⟩
  | 51 => ⟨S80x512x512, .f32⟩
  | 52 => ⟨S80x512x512, .f32⟩
  | 53 => ⟨S80x512x512, .f32⟩
  | 54 => ⟨S512x512, .i32⟩
  | 55 => ⟨S512x512, .i32⟩
  | 56 => ⟨S_, .i32⟩
  | 57 => ⟨S512x512, .i32⟩
  | 58 => ⟨S512x512, .i32⟩
  | 59 => ⟨S512x512, .i1⟩
  | 60 => ⟨S512x512, .f32⟩
  | 61 => ⟨S_, .f32⟩
  | 62 => ⟨S512x512, .f32⟩
  | 63 => ⟨S512x512, .f32⟩
  | 64 => ⟨S1x512x512, .f32⟩
  | 65 => ⟨S80x512x512, .f32⟩
  | 66 => ⟨S80x512x512, .f32⟩
  | 67 => ⟨S512x512, .i32⟩
  | 68 => ⟨S512x512, .i32⟩
  | 69 => ⟨S_, .i32⟩
  | 70 => ⟨S512x512, .i32⟩
  | 71 => ⟨S512x512, .i32⟩
  | 72 => ⟨S512x512, .i1⟩
  | 73 => ⟨S512x512, .f32⟩
  | 74 => ⟨S80x512x1, .f32⟩
  | 75 => ⟨S80x1x512, .f32⟩
  | 76 => ⟨S80x512x512, .f32⟩
  | 77 => ⟨S80x512x512, .f32⟩
  | 78 => ⟨S80x512x512, .f32⟩
  | 79 => ⟨S_, .f32⟩
  | 80 => ⟨S512x512, .f32⟩
  | 81 => ⟨S512x512, .f32⟩
  | 82 => ⟨S1x512x512, .f32⟩
  | 83 => ⟨S80x512x512, .f32⟩
  | 84 => ⟨S80x512x512, .f32⟩
  | 85 => ⟨S_, .f32⟩
  | 86 => ⟨S80, .f32⟩
  | 87 => ⟨S_, .f32⟩
  | 88 => ⟨S80, .f32⟩
  | 89 => ⟨S80, .f32⟩
  | 90 => ⟨S80, .f32⟩
  | 91 => ⟨S_, .f32⟩
  | 92 => ⟨S80, .f32⟩
  | 93 => ⟨S80, .f32⟩
  | 94 => ⟨S80x512x512, .f32⟩
  | 95 => ⟨S_, .f32⟩
  | 96 => ⟨S80, .f32⟩
  | 97 => ⟨S80, .f32⟩
  | 98 => ⟨S80x512x512, .f32⟩
  | 99 => ⟨S_, .f32⟩
  | 100 => ⟨S80, .f32⟩
  | 101 => ⟨S80, .f32⟩
  | 102 => ⟨S_, .f32⟩
  | 103 => ⟨S80, .f32⟩
  | 104 => ⟨S80, .f32⟩
  | 105 => ⟨S80x1x1, .f32⟩
  | 106 => ⟨S80x512x512, .f32⟩
  | 107 => ⟨S80x512x512, .f32⟩
  | 108 => ⟨S_, .f32⟩
  | 109 => ⟨S80, .f32⟩
  | 110 => ⟨S80, .f32⟩
  | 111 => ⟨S80x1x1, .f32⟩
  | 112 => ⟨S80x512x512, .f32⟩
  | 113 => ⟨S80x512x512, .f32⟩
  | 114 => ⟨S80x512x512, .f32⟩
  | 115 => ⟨S80x512x512, .f32⟩
  | 116 => ⟨S_, .f32⟩
  | 117 => ⟨S80x512x512, .f32⟩
  | 118 => ⟨S80x512x512, .i1⟩
  | 119 => ⟨S_, .f32⟩
  | 120 => ⟨S80x512x512, .f32⟩
  | 121 => ⟨S80x512x512, .f32⟩
  | 122 => ⟨S80x512x512, .f32⟩
  | 123 => ⟨S_, .f32⟩
  | 124 => ⟨S80x512x512, .f32⟩
  | 125 => ⟨S80x512x512, .f32⟩
  | 126 => ⟨S80x512x512, .f32⟩
  | 127 => ⟨S80, .f32⟩
  | _ => ⟨S512x80x512, .f32⟩

abbrev hbmTy0_1 (i : Nat) : BufTy := match i % 128 with
  | 0 => ⟨S_, .f32⟩
  | 1 => ⟨S80, .f32⟩
  | 2 => ⟨S80, .f32⟩
  | 3 => ⟨S80x512x512, .f32⟩
  | 4 => ⟨S_, .f32⟩
  | 5 => ⟨S80, .f32⟩
  | 6 => ⟨S80, .f32⟩
  | 7 => ⟨S_, .f32⟩
  | 8 => ⟨S80, .f32⟩
  | 9 => ⟨S80, .i1⟩
  | 10 => ⟨S_, .f32⟩
  | 11 => ⟨S_, .f32⟩
  | 12 => ⟨S80, .f32⟩
  | 13 => ⟨S80, .f32⟩
  | 14 => ⟨S_, .f32⟩
  | 15 => ⟨S_, .f32⟩
  | _ => ⟨S512x80x512, .f32⟩

abbrev hbmTy (i : Nat) : BufTy := match i / 128 with
  | 0 => hbmTy0_0 i
  | 1 => hbmTy0_1 i
  | _ => ⟨S512x80x512, .f32⟩

abbrev bufTy : (tb : Table) → Fin (tcTables nBuf tb) → BufTy
  | .hbm, ⟨i, _⟩ => hbmTy i
  | _, _ => ⟨S512x80x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_c_6 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_7 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_c_8 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_9 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_10 : Ref sig .tc := ⟨.hbm, 85, rfl⟩
abbrev main_v70 : Ref sig .tc := ⟨.hbm, 86, rfl⟩
abbrev main_cst_11 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_12 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_cst_13 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_14 : Ref sig .tc := ⟨.hbm, 99, rfl⟩
abbrev main_v80 : Ref sig .tc := ⟨.hbm, 100, rfl⟩
abbrev main_v81 : Ref sig .tc := ⟨.hbm, 101, rfl⟩
abbrev main_cst_15 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_cst_16 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_cst_17 : Ref sig .tc := ⟨.hbm, 116, rfl⟩
abbrev main_v94 : Ref sig .tc := ⟨.hbm, 117, rfl⟩
abbrev main_v95 : Ref sig .tc := ⟨.hbm, 118, rfl⟩
abbrev main_cst_18 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_cst_19 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_cst_20 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_cst_21 : Ref sig .tc := ⟨.hbm, 132, rfl⟩
abbrev main_v106 : Ref sig .tc := ⟨.hbm, 133, rfl⟩
abbrev main_v107 : Ref sig .tc := ⟨.hbm, 134, rfl⟩
abbrev main_cst_22 : Ref sig .tc := ⟨.hbm, 135, rfl⟩
abbrev main_v108 : Ref sig .tc := ⟨.hbm, 136, rfl⟩
abbrev main_v109 : Ref sig .tc := ⟨.hbm, 137, rfl⟩
abbrev main_cst_23 : Ref sig .tc := ⟨.hbm, 138, rfl⟩
abbrev main_call1_v0 : Ref sig .tc := ⟨.hbm, 139, rfl⟩
abbrev main_call1_v1 : Ref sig .tc := ⟨.hbm, 140, rfl⟩
abbrev main_v110 : Ref sig .tc := ⟨.hbm, 141, rfl⟩
abbrev main_cst_24 : Ref sig .tc := ⟨.hbm, 142, rfl⟩
abbrev main_v111 : Ref sig .tc := ⟨.hbm, 143, rfl⟩

abbrev nD : Nat := 1
abbrev τ : Topo := Topo.v7x

variable {F : FTy → Type} [FloatOps F]

class Facts₀ : Prop where
  transposes_S512x80_S80x512_1_0 : S512x80.Transposes [1, 0] S80x512
  transposes_S512x80x512_S80x512x512_1_0_2 : S512x80x512.Transposes [1, 0, 2] S80x512x512
  reducesTo_S80x512x512_S80x512_d2 : S80x512x512.ReducesTo [2] S80x512
  h_S_ : 0 < S_.numel
  bcast_S80x512_S80x512x1_0_1 : S80x512.BroadcastsInDim S80x512x1 (![0, 1] : Fin 2 → Fin S80x512x1.rank)
  bcast_S80x512_S80x1x512_0_2 : S80x512.BroadcastsInDim S80x1x512 (![0, 2] : Fin 2 → Fin S80x1x512.rank)
  bcast_S80x512x1_S80x512x512_0_1_2 : S80x512x1.BroadcastsInDim S80x512x512 (![0, 1, 2] : Fin 3 → Fin S80x512x512.rank)
  bcast_S80x1x512_S80x512x512_0_1_2 : S80x1x512.BroadcastsInDim S80x512x512 (![0, 1, 2] : Fin 3 → Fin S80x512x512.rank)
  bcast_S_S80x512x512 : S_.BroadcastsInDim S80x512x512 (![] : Fin 0 → Fin S80x512x512.rank)
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S1x512x512_S80x512x512_0_1_2 : S1x512x512.BroadcastsInDim S80x512x512 (![0, 1, 2] : Fin 3 → Fin S80x512x512.rank)
  reducesTo_S80x512_S80_d1 : S80x512.ReducesTo [1] S80
  bcast_S_S80 : S_.BroadcastsInDim S80 (![] : Fin 0 → Fin S80.rank)
  reducesTo_S80x512x512_S80_d1_2 : S80x512x512.ReducesTo [1, 2] S80
  bcast_S80_S80x1x1_0 : S80.BroadcastsInDim S80x1x1 (![0] : Fin 1 → Fin S80x1x1.rank)
  bcast_S80x1x1_S80x512x512_0_1_2 : S80x1x1.BroadcastsInDim S80x512x512 (![0, 1, 2] : Fin 3 → Fin S80x512x512.rank)
  reducesTo_S80_S_d0 : S80.ReducesTo [0] S_
  dot_S80x512x512_S80x512x512_S80x512x512_2_2_1_1_0_0_wf : DotDims.WF S80x512x512 S80x512x512 S80x512x512 [2] [2] [1] [1] [0] [0]

variable [Facts₀]

def dot_S80x512x512_S80x512x512_S80x512x512_2_2_1_1_0_0 : DotDims S80x512x512 S80x512x512 S80x512x512 where
  lhsContracting := [2]
  rhsContracting := [2]
  lhsNonContracting := [1]
  rhsNonContracting := [1]
  lhsBatch := [0]
  rhsBatch := [0]
  wf := dot_S80x512x512_S80x512x512_S80x512x512_2_2_1_1_0_0_wf

class Facts : Prop extends Facts₀ where

variable [Facts]
-- ==== Proof.Spec.lean ====
/-
  The per-class relational distance loss, written in the two arrangements the two programs compute, and the law
  that joins them.

  For one class, `f : Fin n → Fin l → EReal` holds the n feature rows, `mi : Fin n → EReal` the class's mask over
  the rows. `dist f i j` is the clamped Euclidean distance between rows i and j:
  `sqrt (max (|f i|² + |f j|² − 2 ⟨f i, f j⟩) ε)`. Both arrangements then normalise the student's and the teacher's
  distances by their masked off-diagonal means, pass the difference through the smooth-L1 function `hub`, and average
  over the selected pairs.

  ARRANGEMENT K keeps the diagonal of the distances, masks with `(mi i · mi j) · [i ≠ j]`, multiplies by the
  reciprocal `1 / max mean ε`, and applies `hub` AFTER the mask: `hub ((ds · inv_s − dt · inv_t) · mask)`.
  ARRANGEMENT R zeroes the diagonal of the distances first (`d · (1 − [i = j])`), divides by `max mean ε`, applies
  `hub` to the unmasked difference and multiplies by `mi i · mi j` afterwards.

  They agree when every mask entry is 0 or 1 (`outK_eq_outR`): the divisor `max mean ε` is at least ε > 0, so the
  quotient is the product with the reciprocal on all extended reals; off the diagonal with both rows selected the mask
  is 1 and both sides are `hub` of the same difference; anywhere else the K argument is `x · 0 = 0` and
  `hub 0 = 0`, while the R side is `hub _ · 0 = 0` (or, on the diagonal, `hub (0 − 0) · _ = 0`). No finiteness is
  used: only that 0 annihilates, 1 is neutral, and ε is positive.
-/
import Idealize.ShloMosaic.PureOps.Ideal
import Idealize.ShloMosaic.PureOps.Ideal.Laws
import Idealize.ShloMosaic.Lib.IdealHost
import Mathlib.Algebra.BigOperators.Group.Finset.Basic

noncomputable section

namespace Cert.PairLoss

open Idealize.ShloMosaic

/-- The clamp ε: the f32 nearest 1e-8, the same word in both programs. -/
abbrev eps : EReal := Ideal.ofBits .f32 0x322BCC77#32
/-- The f32 word of 2. -/
abbrev two : EReal := Ideal.ofBits .f32 0x40000000#32
/-- The f32 word of 1/2. -/
abbrev half : EReal := Ideal.ofBits .f32 0x3F000000#32

theorem eps_pos : (0 : EReal) < eps := by
  simp [eps, Ideal.ofBits, Ideal.ieee, -EReal.coe_mul]

/-- A value clamped below by ε is not zero. -/
theorem max_eps_ne_zero (x : EReal) : max x eps ≠ 0 :=
  (lt_of_lt_of_le eps_pos (le_max_right x eps)).ne'

variable {n l : ℕ}

/-! ## The clamped pairwise distances (the same arrangement in both programs) -/

/-- The squared norm of row `i`. -/
def sq (f : Fin n → Fin l → EReal) (i : Fin n) : EReal := ∑ k, f i k * f i k
/-- The inner product of rows `i` and `j`. -/
def gram (f : Fin n → Fin l → EReal) (i j : Fin n) : EReal := ∑ k, f i k * f j k
/-- The clamped distance between rows `i` and `j`. -/
def dist (f : Fin n → Fin l → EReal) (i j : Fin n) : EReal :=
  Ideal.sqrt (max (sq f i + sq f j - two * gram f i j) eps)

/-- Smooth-L1 with threshold one: `x² / 2` where `|x| < 1`, else `|x| − 1/2` (`|x|` as `max x (−x)`). -/
def hub (x : EReal) : EReal :=
  Scalar.select (Ideal.cmp .olt (max x (-x)) 1) (half * x * x) (max x (-x) - half)

theorem hub_zero : hub 0 = 0 := by
  simp [hub, Ideal.cmp, Scalar.select]

/-- The number of selected rows, and the two pair counts the means divide by. -/
def num (mi : Fin n → EReal) : EReal := ∑ j, mi j
def cnt (mi : Fin n → EReal) : EReal := max (num mi * (num mi - 1)) 1
def den (mi : Fin n → EReal) : EReal := max (num mi * num mi) 1

/-! ## Arrangement K: mask inside the smooth-L1, reciprocal of the mean -/

def offK (i j : Fin n) : EReal := if i = j then 0 else 1
def maskK (mi : Fin n → EReal) (i j : Fin n) : EReal := (mi i * mi j) * offK i j
def meanK (d : Fin n → Fin n → EReal) (mi : Fin n → EReal) : EReal :=
  Ideal.div (∑ i, ∑ j, d i j * maskK mi i j) (cnt mi)
def invK (d : Fin n → Fin n → EReal) (mi : Fin n → EReal) : EReal := Ideal.div 1 (max (meanK d mi) eps)
def lossK (ds dt : Fin n → Fin n → EReal) (mi : Fin n → EReal) : EReal :=
  Ideal.div (∑ i, ∑ j, hub ((ds i j * invK ds mi - dt i j * invK dt mi) * maskK mi i j)) (den mi)
def outK (ds dt : Fin n → Fin n → EReal) (mi : Fin n → EReal) : EReal :=
  Scalar.select (Ideal.cmp .ogt (num mi) 1) (lossK ds dt mi) 0

/-! ## Arrangement R: diagonal zeroed first, quotient by the mean, mask outside the smooth-L1 -/

def offR (i j : Fin n) : EReal := 1 - (if i = j then 1 else 0)
def zdiag (d : Fin n → Fin n → EReal) (i j : Fin n) : EReal := d i j * offR i j
def maskR (mi : Fin n → EReal) (i j : Fin n) : EReal := (mi i * mi j) * offR i j
def meanR (d : Fin n → Fin n → EReal) (mi : Fin n → EReal) : EReal :=
  Ideal.div (∑ i, ∑ j, zdiag d i j * maskR mi i j) (cnt mi)
def lossR (ds dt : Fin n → Fin n → EReal) (mi : Fin n → EReal) : EReal :=
  Ideal.div (∑ i, ∑ j, hub (Ideal.div (zdiag ds i j) (max (meanR ds mi) eps)
      - Ideal.div (zdiag dt i j) (max (meanR dt mi) eps)) * (mi i * mi j)) (den mi)
def outR (ds dt : Fin n → Fin n → EReal) (mi : Fin n → EReal) : EReal :=
  Scalar.select (Ideal.cmp .ogt (num mi) 1) (lossR ds dt mi) 0

/-! ## The law -/

/-- `1 − [i = j]` is `[i ≠ j]`. -/
theorem offR_eq (i j : Fin n) : offR i j = offK i j := by
  unfold offR offK
  by_cases h : i = j
  · rw [if_pos h, if_pos h, ← EReal.coe_one, ← EReal.coe_sub, sub_self, EReal.coe_zero]
  · rw [if_neg h, if_neg h, sub_zero]

/-- The masked distances agree term by term: the off-diagonal indicator is idempotent. -/
theorem mean_term (d : Fin n → Fin n → EReal) (mi : Fin n → EReal) (i j : Fin n) :
    zdiag d i j * maskR mi i j = d i j * maskK mi i j := by
  unfold zdiag maskR maskK
  rw [offR_eq]
  unfold offK
  by_cases h : i = j
  · simp only [if_pos h, mul_zero]
  · simp only [if_neg h, mul_one]

theorem meanR_eq (d : Fin n → Fin n → EReal) (mi : Fin n → EReal) : meanR d mi = meanK d mi := by
  unfold meanR meanK
  simp only [mean_term]

/-- One pair's smooth-L1 term, under a 0/1 mask. -/
theorem term_eq (mi : Fin n → EReal) (hm : ∀ i, mi i = 0 ∨ mi i = 1) (ds dt : Fin n → Fin n → EReal) (i j : Fin n) :
    hub (Ideal.div (zdiag ds i j) (max (meanR ds mi) eps) - Ideal.div (zdiag dt i j) (max (meanR dt mi) eps))
        * (mi i * mi j)
      = hub ((ds i j * invK ds mi - dt i j * invK dt mi) * maskK mi i j) := by
  rw [meanR_eq, meanR_eq]
  unfold invK
  rw [Ideal.mul_one_div (max_eps_ne_zero _), Ideal.mul_one_div (max_eps_ne_zero _)]
  unfold zdiag maskK
  rw [offR_eq]
  unfold offK
  by_cases h : i = j
  · simp only [if_pos h, mul_zero, Ideal.zero_div (max_eps_ne_zero _), sub_zero, hub_zero, zero_mul]
  · simp only [if_neg h, mul_one]
    rcases hm i with hi | hi <;> rcases hm j with hj | hj <;>
      simp only [hi, hj, mul_zero, zero_mul, mul_one, hub_zero]

/-- THE LAW: under a 0/1 mask the two arrangements are one value. -/
theorem outK_eq_outR (mi : Fin n → EReal) (hm : ∀ i, mi i = 0 ∨ mi i = 1) (ds dt : Fin n → Fin n → EReal) :
    outK ds dt mi = outR ds dt mi := by
  unfold outK outR lossK lossR
  simp only [term_eq mi hm]

/-! ## The batch: eighty classes over [512, 80, 512] features and [512, 80] labels -/

/-- The feature rows of class `c`: row `i`, coordinate `k` of a [512, 80, 512] array. -/
def rows (x : (⟨3, ![512, 80, 512]⟩ : Shape).Idx → EReal) (c : Fin 80) : Fin 512 → Fin 512 → EReal :=
  fun i k => x (ValueIdx.ix3 i c k)

/-- The mask of class `c`: column `c` of the [512, 80] integer labels, each read as a signed integer. -/
def mask (t : (⟨2, ![512, 80]⟩ : Shape).Idx → BitVec 32) (c : Fin 80) : Fin 512 → EReal :=
  fun i => (((t (ValueIdx.ix2 i c)).toInt : ℝ) : EReal)

/-- The loss of class `c`, in arrangement R, of the student's and the teacher's features. -/
def classR (x0 x1 : (⟨3, ![512, 80, 512]⟩ : Shape).Idx → EReal) (t : (⟨2, ![512, 80]⟩ : Shape).Idx → BitVec 32)
    (c : Fin 80) : EReal :=
  outR (dist (rows x0 c)) (dist (rows x1 c)) (mask t c)

/-- The same in arrangement K. -/
def classK (x0 x1 : (⟨3, ![512, 80, 512]⟩ : Shape).Idx → EReal) (t : (⟨2, ![512, 80]⟩ : Shape).Idx → BitVec 32)
    (c : Fin 80) : EReal :=
  outK (dist (rows x0 c)) (dist (rows x1 c)) (mask t c)

/-- The result both programs return: the sum of the class losses. -/
def total (x0 x1 : (⟨3, ![512, 80, 512]⟩ : Shape).Idx → EReal) (t : (⟨2, ![512, 80]⟩ : Shape).Idx → BitVec 32) : EReal :=
  ∑ c : Fin 80, classR x0 x1 t c

/-- Labels that are the words 0 or 1 give a 0/1 mask. -/
theorem mask_01 (t : (⟨2, ![512, 80]⟩ : Shape).Idx → BitVec 32) (ht : ∀ i, t i = 0#32 ∨ t i = 1#32) (c : Fin 80)
    (i : Fin 512) : mask t c i = 0 ∨ mask t c i = 1 := by
  unfold mask
  rcases ht (ValueIdx.ix2 i c) with h | h
  · left; rw [h]; simp
  · right; rw [h]; simp

/-- Under 0/1 labels the two arrangements of a class's loss agree. -/
theorem classK_eq_classR (x0 x1 : (⟨3, ![512, 80, 512]⟩ : Shape).Idx → EReal)
    (t : (⟨2, ![512, 80]⟩ : Shape).Idx → BitVec 32) (ht : ∀ i, t i = 0#32 ∨ t i = 1#32) (c : Fin 80) :
    classK x0 x1 t c = classR x0 x1 t c :=
  outK_eq_outR (mask t c) (mask_01 t ht c) _ _

end Cert.PairLoss

end
-- ==== Proof.PreMask.lean ====
/-
  The precondition, read back: where it holds, every label is the word 0 or the word 1.

  The printed predicate is a conjunction of three `all`s; the third is over `(labels = 0) or (labels = 1)`, entry by
  entry. If the conjunction is the bit 1 then so is the third conjunct, an `and`-fold over all entries that came out 1
  met only 1s, and an entry's `or` of two equality tests being 1 says the entry is one of the two words.
-/
import proofs.«405246_j49555332661898_4_alg».proof.Pre_finite_inputs
import Idealize.ShloMosaic.Lib.ReduceAll
import Idealize.ShloMosaic.Lib.StableHlo.Predicate
import Idealize.ShloMosaic.Lib.IdealHost

noncomputable section

namespace Cert.Pre_finite_inputs.Mask

open Idealize.ShloMosaic Cert.Pre_finite_inputs

variable [Facts]

instance : Subsingleton S_.Idx := ⟨fun a b => funext fun d => d.elim0⟩

/-- Under the precondition every label is 0 or 1. -/
theorem labels_01 {F : FTy → Type} [FloatOps F] (a0 a1 : FVec F S512x80x512 .f32) (a2 : IVec S512x80 32)
    (h : fn (F := F) a0 a1 a2 = fun _ => 1#1) (i : S512x80.Idx) : a2 i = 0#32 ∨ a2 i = 1#32 := by
  have h0 := congrFun h ValueIdx.ix0
  dsimp only [fn] at h0
  obtain ⟨-, h14⟩ := IntOp.andi_eq_one.1 h0
  have hi := Host.reduce_andi_all _ _ _ _ _ h14 i
  rcases IntOp.ori_eq_one.1 hi with h | h
  · left
    have := StableHlo.Predicate.cmpi_eq_iff.1 h
    rw [this, ValueIdx.broadcastInDim_scalar_apply]
    rfl
  · right
    have := StableHlo.Predicate.cmpi_eq_iff.1 h
    rw [this, ValueIdx.broadcastInDim_scalar_apply]
    rfl

end Cert.Pre_finite_inputs.Mask

end
-- ==== Proof.RefValue.lean ====
/-
  The reference's result, read back: the sum over the classes of arrangement R of the class loss (Spec.lean).

  Each stage of the reference is read at explicit coordinates (class c, rows i and j, feature k) and identified with
  the term of Spec.lean it computes: the transposed labels are the class masks, the transposed features the class rows;
  the squared norms, inner products and clamped distances are `sq`, `gram` and `dist`; one minus the identity matrix
  is `offR`; the sums over the two row axes at class c are double sums over the row coordinates; the select on
  |x| < 1 is `hub`; the guarded quotient is `outR`; and the last sum, over the classes, is `total`.
-/
import proofs.«405246_j49555332661898_4_alg».proof.Proof.RefRead
import proofs.«405246_j49555332661898_4_alg».proof.Proof.Spec
import Idealize.ShloMosaic.Lib.ValueIdx
import Idealize.ShloMosaic.Lib.IdealHost
import Idealize.ShloMosaic.PureOps.Ideal.Laws
import Mathlib.Algebra.BigOperators.Group.Finset.Basic

noncomputable section

namespace Cert.ReferenceIdeal.RefValue

open Idealize.ShloMosaic Idealize.ShloMosaic.ValueIdx Cert.ReferenceIdeal Cert.ReferenceIdeal.Gen Cert.ReferenceIdeal.Read

/-! ## A sum over the two row axes of an [80, 512, 512] array -/

/-- Dropping the two row axes of an index keeps its class coordinate. -/
theorem drop12_eq_iff (h : S80x512x512.ReducesTo [1, 2] S80) (i : S80x512x512.Idx) (c : Fin 80) :
    h.drop i = ix1 c ↔ i 0 = c := by
  have h0 : ((h.drop i 0 : Fin 80) : Nat) = (i 0 : Fin 80) := Shape.ReducesTo.drop_apply_val_of_eq h i 0 0
  constructor
  · intro e
    rw [e] at h0
    exact (Fin.ext h0).symm
  · intro e
    funext b
    match b with
    | ⟨0, _⟩ => exact Fin.ext (h0.trans (congrArg Fin.val e))

/-- The sum over axes 1 and 2 at class `c` is the initial value plus the double sum over the two row coordinates:
    the indices that drop to `c` are exactly the `(c, a, b)`. -/
theorem hostReduceAdd_d12 (h : S80x512x512.ReducesTo [1, 2] S80) (x : S80x512x512.Idx → EReal) (init : EReal) (c : Fin 80) :
    Ideal.hostReduceAdd h x init (ix1 c) = init + ∑ a : Fin 512, ∑ b : Fin 512, x (ix3 c a b) := by
  unfold Ideal.hostReduceAdd
  refine congrArg (init + ·) ?_
  rw [← Finset.sum_product' Finset.univ Finset.univ (fun a b => x (ix3 c a b))]
  refine Finset.sum_bij' (fun i _ => ((i 1 : Fin 512), (i 2 : Fin 512))) (fun p _ => ix3 c p.1 p.2) ?_ ?_ ?_ ?_ ?_
  · intro i _; exact Finset.mem_product.2 ⟨Finset.mem_univ _, Finset.mem_univ _⟩
  · intro p _; exact Finset.mem_filter.2 ⟨Finset.mem_univ _, (drop12_eq_iff h _ c).2 rfl⟩
  · intro i hi
    have e := (drop12_eq_iff h i c).1 (Finset.mem_filter.1 hi).2
    subst e
    exact (eq_ix3 i).symm
  · intro p _; rfl
  · intro i hi
    have e := (drop12_eq_iff h i c).1 (Finset.mem_filter.1 hi).2
    subst e
    exact congrArg x (eq_ix3 i)

/-- A host sum over the two row axes, with the zero word as its initial value. -/
theorem reduce12_at (x : FVec Ideal S80x512x512 .f32) (init : S_.Idx → Ideal .f32)
    (h0 : ∀ i, init i = Ideal.ofBits .f32 0x00000000#32) (c : Fin 80) :
    Host.reduceAdd x init reducesTo_S80x512x512_S80_d1_2 h_S_ (ix1 c) = ∑ a : Fin 512, ∑ b : Fin 512, x (ix3 c a b) := by
  rw [hostReduceAdd_apply, hostReduceAdd_d12, h0]
  exact (congrArg (· + _) Ideal.ofBits_zero_f32).trans (zero_add _)

/-! ## Indices at explicit coordinates -/

local macro "idx1" : tactic => `(tactic| (funext a; match a with | ⟨0, _⟩ => rfl))
local macro "idx2" : tactic => `(tactic| (funext a; match a with | ⟨0, _⟩ => rfl | ⟨1, _⟩ => rfl))
local macro "idx3" : tactic => `(tactic| (funext a; match a with | ⟨0, _⟩ => rfl | ⟨1, _⟩ => rfl | ⟨2, _⟩ => rfl))

theorem zero_word_add (x : EReal) : FloatOps.ofBits (F := Ideal) .f32 0x00000000#32 + x = x :=
  (congrArg (· + x) Ideal.ofBits_zero_f32).trans (zero_add x)

theorem one_word : FloatOps.ofBits (F := Ideal) .f32 0x3F800000#32 = 1 := Ideal.ofBits_one_f32

section Stages

variable (x0 x1 : (⟨S512x80x512, .f32⟩ : BufTy).Contents (Elt Ideal)) (x2 : (⟨S512x80, .i32⟩ : BufTy).Contents (Elt Ideal))

/-! ## The mask and the counts -/

/-- The converted, transposed labels at (c, i) are the class mask. -/
theorem v1_at (c : Fin 80) (i : Fin 512) : val_main_v1 (F := Ideal) x2 (ix2 c i) = PairLoss.mask x2 c i := by
  rw [val_main_v1_apply, val_main_v0_apply, show idx_main_v0 (ix2 c i) = ix2 i c from by idx2]
  rfl

/-- The row count of class c. -/
theorem v70_at (c : Fin 80) : val_main_v70 (F := Ideal) x2 (ix1 c) = PairLoss.num (PairLoss.mask x2 c) := by
  rw [val_main_v70_apply, val_main_cst_10_apply, zero_word_add]
  unfold PairLoss.num
  refine Finset.sum_congr rfl fun k _ => ?_
  rw [show idx_main_v70 (ix1 c) k = ix2 c k from by idx2, v1_at]

theorem v75_at (c : Fin 80) : val_main_v75 (F := Ideal) x2 (ix1 c) = PairLoss.cnt (PairLoss.mask x2 c) := by
  rw [val_main_v75_apply, val_main_v73_apply, val_main_v72_apply, val_main_v71_apply, val_main_cst_11_apply,
    val_main_v74_apply, val_main_cst_12_apply, v70_at, one_word]
  rfl

theorem v104_at (c : Fin 80) : val_main_v104 (F := Ideal) x2 (ix1 c) = PairLoss.den (PairLoss.mask x2 c) := by
  rw [val_main_v104_apply, val_main_v102_apply, val_main_v103_apply, val_main_cst_20_apply, v70_at, one_word]
  rfl

/-- The selected-pair mask at (c, i, j). -/
theorem v64_at (c : Fin 80) (i j : Fin 512) :
    val_main_v64 (F := Ideal) x2 (ix3 c i j) = PairLoss.mask x2 c i * PairLoss.mask x2 c j := by
  rw [val_main_v64_apply, val_main_v62_apply, val_main_v60_apply, val_main_v63_apply, val_main_v61_apply,
    show idx_main_v60 (idx_main_v62 (ix3 c i j)) = ix2 c i from by idx2,
    show idx_main_v61 (idx_main_v63 (ix3 c i j)) = ix2 c j from by idx2, v1_at, v1_at]
  rfl

/-! ## The clamped distances -/

/-- The transposed student features at (c, i, k) are row i, coordinate k of class c. -/
theorem v2_at (c : Fin 80) (i k : Fin 512) : val_main_v2 (F := Ideal) x0 (ix3 c i k) = PairLoss.rows x0 c i k := by
  rw [val_main_v2_apply, show idx_main_v2 (ix3 c i k) = ix3 i c k from by idx3]
  rfl

theorem v3_at (c : Fin 80) (i k : Fin 512) : val_main_v3 (F := Ideal) x1 (ix3 c i k) = PairLoss.rows x1 c i k := by
  rw [val_main_v3_apply, show idx_main_v3 (ix3 c i k) = ix3 i c k from by idx3]
  rfl

/-- The squared norms. -/
theorem v5_at (c : Fin 80) (i : Fin 512) :
    val_main_v5 (F := Ideal) x0 (ix2 c i) = PairLoss.sq (PairLoss.rows x0 c) i := by
  rw [val_main_v5_apply, val_main_cst_apply, zero_word_add]
  unfold PairLoss.sq
  refine Finset.sum_congr rfl fun k _ => ?_
  rw [val_main_v4_apply, show idx_main_v5 (ix2 c i) k = ix3 c i k from by idx3, v2_at]
  rfl

theorem v30_at (c : Fin 80) (i : Fin 512) :
    val_main_v30 (F := Ideal) x1 (ix2 c i) = PairLoss.sq (PairLoss.rows x1 c) i := by
  rw [val_main_v30_apply, val_main_cst_3_apply, zero_word_add]
  unfold PairLoss.sq
  refine Finset.sum_congr rfl fun k _ => ?_
  rw [val_main_v29_apply, show idx_main_v30 (ix2 c i) k = ix3 c i k from by idx3, v3_at]
  rfl

/-- The inner products. -/
theorem v6_at (c : Fin 80) (i j : Fin 512) :
    val_main_v6 (F := Ideal) x0 (ix3 c i j) = PairLoss.gram (PairLoss.rows x0 c) i j := by
  rw [val_main_v6_apply]
  unfold PairLoss.gram
  refine Finset.sum_congr rfl fun k _ => ?_
  rw [show lidx_main_v6 (ix3 c i j) k = ix3 c i k from by idx3,
    show ridx_main_v6 (ix3 c i j) k = ix3 c j k from by idx3, v2_at, v2_at]

theorem v31_at (c : Fin 80) (i j : Fin 512) :
    val_main_v31 (F := Ideal) x1 (ix3 c i j) = PairLoss.gram (PairLoss.rows x1 c) i j := by
  rw [val_main_v31_apply]
  unfold PairLoss.gram
  refine Finset.sum_congr rfl fun k _ => ?_
  rw [show lidx_main_v31 (ix3 c i j) k = ix3 c i k from by idx3,
    show ridx_main_v31 (ix3 c i j) k = ix3 c j k from by idx3, v3_at, v3_at]

/-- The clamped distance between rows i and j of class c. -/
theorem v17_at (c : Fin 80) (i j : Fin 512) :
    val_main_v17 (F := Ideal) x0 (ix3 c i j) = PairLoss.dist (PairLoss.rows x0 c) i j := by
  rw [val_main_v17_apply, val_main_v16_apply, val_main_v14_apply, val_main_v11_apply, val_main_v13_apply,
    val_main_v9_apply, val_main_v7_apply, val_main_v10_apply, val_main_v8_apply, val_main_v12_apply,
    val_main_cst_0_apply, val_main_v15_apply, val_main_cst_1_apply, v6_at,
    show idx_main_v7 (idx_main_v9 (ix3 c i j)) = ix2 c i from by idx2,
    show idx_main_v8 (idx_main_v10 (ix3 c i j)) = ix2 c j from by idx2, v5_at, v5_at]
  rfl

theorem v42_at (c : Fin 80) (i j : Fin 512) :
    val_main_v42 (F := Ideal) x1 (ix3 c i j) = PairLoss.dist (PairLoss.rows x1 c) i j := by
  rw [val_main_v42_apply, val_main_v41_apply, val_main_v39_apply, val_main_v36_apply, val_main_v38_apply,
    val_main_v34_apply, val_main_v32_apply, val_main_v35_apply, val_main_v33_apply, val_main_v37_apply,
    val_main_cst_4_apply, val_main_v40_apply, val_main_cst_5_apply, v31_at,
    show idx_main_v32 (idx_main_v34 (ix3 c i j)) = ix2 c i from by idx2,
    show idx_main_v33 (idx_main_v35 (ix3 c i j)) = ix2 c j from by idx2, v30_at, v30_at]
  rfl

/-! ## The off-diagonal indicator -/

/-- The words of two coordinates below 512 are equal only if the coordinates are. -/
theorem word_inj (i j : Fin 512) (h : BitVec.ofNat 32 i.val = BitVec.ofNat 32 j.val) : i = j := by
  have := congrArg BitVec.toNat h
  rw [BitVec.toNat_ofNat, BitVec.toNat_ofNat] at this
  have hi := i.isLt
  have hj := j.isLt
  exact Fin.ext (by omega)

/-- One minus the converted comparison of the two coordinate words is `1 − [i = j]`. -/
theorem eye_word (i j : Fin 512) :
    FloatOps.subf (F := Ideal) (φ := .f32) (FloatOps.ofBits .f32 0x3F800000#32)
        (FloatOps.uitofp .f32 (IntOp.cmpi .eq (IntOp.addi (BitVec.ofNat 32 i.val) 0#32) (BitVec.ofNat 32 j.val)))
      = PairLoss.offR i j := by
  rw [one_word]
  unfold PairLoss.offR
  refine congrArg (1 - ·) ?_
  show (((IntOp.cmpi .eq (IntOp.addi (BitVec.ofNat 32 i.val) 0#32) (BitVec.ofNat 32 j.val)).toNat : ℝ) : EReal) = _
  unfold IntOp.cmpi IntOp.addi
  rw [BitVec.add_zero]
  by_cases h : i = j
  · subst h
    simp
  · rw [if_neg h]
    have : (BitVec.ofNat 32 i.val == BitVec.ofNat 32 j.val) = false := by
      rw [beq_eq_false_iff_ne]
      exact fun e => h (word_inj i j e)
    simp [this]

theorem v25_at (i j : Fin 512) : val_main_v25 (F := Ideal) (ix2 i j) = PairLoss.offR i j := by
  rw [val_main_v25_apply, val_main_v24_apply, val_main_cst_2_apply, val_main_v23_apply, val_main_v22_apply,
    val_main_v21_apply, val_main_v18_apply, val_main_v19_apply, val_main_v20_apply, val_main_c_apply]
  exact eye_word i j

theorem v50_at (i j : Fin 512) : val_main_v50 (F := Ideal) (ix2 i j) = PairLoss.offR i j := by
  rw [val_main_v50_apply, val_main_v49_apply, val_main_cst_7_apply, val_main_v48_apply, val_main_v47_apply,
    val_main_v46_apply, val_main_v43_apply, val_main_v44_apply, val_main_v45_apply, val_main_c_6_apply]
  exact eye_word i j

theorem v66_at (i j : Fin 512) : val_main_v66 (F := Ideal) (ix2 i j) = PairLoss.offR i j := by
  rw [val_main_v66_apply, val_main_v65_apply, val_main_cst_9_apply, val_main_v59_apply, val_main_v58_apply,
    val_main_v57_apply, val_main_v54_apply, val_main_v55_apply, val_main_v56_apply, val_main_c_8_apply]
  exact eye_word i j

theorem v27_at (c : Fin 80) (i j : Fin 512) : val_main_v27 (F := Ideal) (ix3 c i j) = PairLoss.offR i j := by
  rw [val_main_v27_apply, val_main_v26_apply,
    show idx_main_v26 (idx_main_v27 (ix3 c i j)) = ix2 i j from by idx2, v25_at]

theorem v52_at (c : Fin 80) (i j : Fin 512) : val_main_v52 (F := Ideal) (ix3 c i j) = PairLoss.offR i j := by
  rw [val_main_v52_apply, val_main_v51_apply,
    show idx_main_v51 (idx_main_v52 (ix3 c i j)) = ix2 i j from by idx2, v50_at]

theorem v68_at (c : Fin 80) (i j : Fin 512) : val_main_v68 (F := Ideal) (ix3 c i j) = PairLoss.offR i j := by
  rw [val_main_v68_apply, val_main_v67_apply,
    show idx_main_v67 (idx_main_v68 (ix3 c i j)) = ix2 i j from by idx2, v66_at]

/-- The distances with their diagonal zeroed. -/
theorem v28_at (c : Fin 80) (i j : Fin 512) :
    val_main_v28 (F := Ideal) x0 (ix3 c i j) = PairLoss.zdiag (PairLoss.dist (PairLoss.rows x0 c)) i j := by
  rw [val_main_v28_apply, v17_at, v27_at]
  rfl

theorem v53_at (c : Fin 80) (i j : Fin 512) :
    val_main_v53 (F := Ideal) x1 (ix3 c i j) = PairLoss.zdiag (PairLoss.dist (PairLoss.rows x1 c)) i j := by
  rw [val_main_v53_apply, v42_at, v52_at]
  rfl

/-- The off-diagonal selected-pair mask. -/
theorem v69_at (c : Fin 80) (i j : Fin 512) :
    val_main_v69 (F := Ideal) x2 (ix3 c i j) = PairLoss.maskR (PairLoss.mask x2 c) i j := by
  rw [val_main_v69_apply, v64_at, v68_at]
  rfl

/-! ## The means, the smooth-L1 terms and the class loss -/

/-- The masked off-diagonal sum of the student's distances. -/
theorem v77_at (c : Fin 80) :
    val_main_v77 (F := Ideal) x0 x2 (ix1 c)
      = ∑ a : Fin 512, ∑ b : Fin 512,
          PairLoss.zdiag (PairLoss.dist (PairLoss.rows x0 c)) a b * PairLoss.maskR (PairLoss.mask x2 c) a b := by
  unfold val_main_v77
  rw [reduce12_at _ (val_main_cst_13 (F := Ideal)) (fun _ => rfl)]
  refine Finset.sum_congr rfl fun a _ => Finset.sum_congr rfl fun b _ => ?_
  rw [val_main_v76_apply, v28_at, v69_at]
  rfl

theorem v80_at (c : Fin 80) :
    val_main_v80 (F := Ideal) x1 x2 (ix1 c)
      = ∑ a : Fin 512, ∑ b : Fin 512,
          PairLoss.zdiag (PairLoss.dist (PairLoss.rows x1 c)) a b * PairLoss.maskR (PairLoss.mask x2 c) a b := by
  unfold val_main_v80
  rw [reduce12_at _ (val_main_cst_14 (F := Ideal)) (fun _ => rfl)]
  refine Finset.sum_congr rfl fun a _ => Finset.sum_congr rfl fun b _ => ?_
  rw [val_main_v79_apply, v53_at, v69_at]
  rfl

/-- The masked off-diagonal means. -/
theorem v78_at (c : Fin 80) :
    val_main_v78 (F := Ideal) x0 x2 (ix1 c) = PairLoss.meanR (PairLoss.dist (PairLoss.rows x0 c)) (PairLoss.mask x2 c) := by
  rw [val_main_v78_apply, v77_at, v75_at]
  rfl

theorem v81_at (c : Fin 80) :
    val_main_v81 (F := Ideal) x1 x2 (ix1 c) = PairLoss.meanR (PairLoss.dist (PairLoss.rows x1 c)) (PairLoss.mask x2 c) := by
  rw [val_main_v81_apply, v80_at, v75_at]
  rfl

/-- The clamped means, broadcast over the pairs. -/
theorem v85_at (c : Fin 80) (i j : Fin 512) :
    val_main_v85 (F := Ideal) x0 x2 (ix3 c i j)
      = max (PairLoss.meanR (PairLoss.dist (PairLoss.rows x0 c)) (PairLoss.mask x2 c)) PairLoss.eps := by
  rw [val_main_v85_apply, val_main_v84_apply, show idx_main_v84 (idx_main_v85 (ix3 c i j)) = ix1 c from by idx1,
    val_main_v83_apply, val_main_v82_apply, val_main_cst_15_apply, v78_at]
  rfl

theorem v90_at (c : Fin 80) (i j : Fin 512) :
    val_main_v90 (F := Ideal) x1 x2 (ix3 c i j)
      = max (PairLoss.meanR (PairLoss.dist (PairLoss.rows x1 c)) (PairLoss.mask x2 c)) PairLoss.eps := by
  rw [val_main_v90_apply, val_main_v89_apply, show idx_main_v89 (idx_main_v90 (ix3 c i j)) = ix1 c from by idx1,
    val_main_v88_apply, val_main_v87_apply, val_main_cst_16_apply, v81_at]
  rfl

/-- The difference of the normalised distances. -/
theorem v92_at (c : Fin 80) (i j : Fin 512) :
    val_main_v92 (F := Ideal) x0 x1 x2 (ix3 c i j)
      = Ideal.div (PairLoss.zdiag (PairLoss.dist (PairLoss.rows x0 c)) i j)
            (max (PairLoss.meanR (PairLoss.dist (PairLoss.rows x0 c)) (PairLoss.mask x2 c)) PairLoss.eps)
          - Ideal.div (PairLoss.zdiag (PairLoss.dist (PairLoss.rows x1 c)) i j)
            (max (PairLoss.meanR (PairLoss.dist (PairLoss.rows x1 c)) (PairLoss.mask x2 c)) PairLoss.eps) := by
  rw [val_main_v92_apply, val_main_v86_apply, val_main_v91_apply, v28_at, v53_at, v85_at, v90_at]
  rfl

/-- The smooth-L1 of that difference. -/
theorem v101_at (c : Fin 80) (i j : Fin 512) :
    val_main_v101 (F := Ideal) x0 x1 x2 (ix3 c i j)
      = PairLoss.hub (Ideal.div (PairLoss.zdiag (PairLoss.dist (PairLoss.rows x0 c)) i j)
            (max (PairLoss.meanR (PairLoss.dist (PairLoss.rows x0 c)) (PairLoss.mask x2 c)) PairLoss.eps)
          - Ideal.div (PairLoss.zdiag (PairLoss.dist (PairLoss.rows x1 c)) i j)
            (max (PairLoss.meanR (PairLoss.dist (PairLoss.rows x1 c)) (PairLoss.mask x2 c)) PairLoss.eps)) := by
  rw [val_main_v101_apply, val_main_v95_apply, val_main_v98_apply, val_main_v100_apply, val_main_v97_apply,
    val_main_v93_apply, val_main_v94_apply, val_main_cst_17_apply, val_main_v96_apply, val_main_cst_18_apply,
    val_main_v99_apply, val_main_cst_19_apply, v92_at, one_word]
  rfl

/-- The masked sum of the smooth-L1 terms. -/
theorem v106_at (c : Fin 80) :
    val_main_v106 (F := Ideal) x0 x1 x2 (ix1 c)
      = ∑ i : Fin 512, ∑ j : Fin 512,
          PairLoss.hub (Ideal.div (PairLoss.zdiag (PairLoss.dist (PairLoss.rows x0 c)) i j)
            (max (PairLoss.meanR (PairLoss.dist (PairLoss.rows x0 c)) (PairLoss.mask x2 c)) PairLoss.eps)
          - Ideal.div (PairLoss.zdiag (PairLoss.dist (PairLoss.rows x1 c)) i j)
            (max (PairLoss.meanR (PairLoss.dist (PairLoss.rows x1 c)) (PairLoss.mask x2 c)) PairLoss.eps))
            * (PairLoss.mask x2 c i * PairLoss.mask x2 c j) := by
  unfold val_main_v106
  rw [reduce12_at _ (val_main_cst_21 (F := Ideal)) (fun _ => rfl)]
  refine Finset.sum_congr rfl fun a _ => Finset.sum_congr rfl fun b _ => ?_
  rw [val_main_v105_apply, v101_at, v64_at]
  rfl

/-- The class loss before the guard. -/
theorem v107_at (c : Fin 80) :
    val_main_v107 (F := Ideal) x0 x1 x2 (ix1 c)
      = PairLoss.lossR (PairLoss.dist (PairLoss.rows x0 c)) (PairLoss.dist (PairLoss.rows x1 c)) (PairLoss.mask x2 c) := by
  rw [val_main_v107_apply, v106_at, v104_at]
  rfl

/-- The guarded class loss. -/
theorem v110_at (c : Fin 80) : val_main_v110 (F := Ideal) x0 x1 x2 (ix1 c) = PairLoss.classR x0 x1 x2 c := by
  rw [val_main_v110_apply, val_main_v109_apply, val_main_v108_apply, val_main_cst_22_apply, val_main_call1_v1_apply,
    val_main_call1_v0_apply, val_main_cst_23_apply, v107_at, v70_at, one_word,
    show FloatOps.ofBits (F := Ideal) .f32 0x00000000#32 = 0 from Ideal.ofBits_zero_f32]
  rfl

end Stages

/-! ## The total -/

/-- A rank-1 index set of extent 80 is its coordinate range. -/
def idxEquiv1 : Fin 80 ≃ S80.Idx where
  toFun := ix1
  invFun j := j 0
  left_inv _ := rfl
  right_inv j := (eq_ix1 j).symm

/-- The reference's last stage is the total of the class losses, at its one index. -/
theorem result_eq (x0 x1 : (⟨S512x80x512, .f32⟩ : BufTy).Contents (Elt Ideal)) (x2 : (⟨S512x80, .i32⟩ : BufTy).Contents (Elt Ideal)) :
    val_main_v111 (F := Ideal) x0 x1 x2 = fun _ => Cert.PairLoss.total x0 x1 x2 := by
  funext i
  rw [val_main_v111_apply, val_main_cst_24_apply, zero_word_add]
  unfold PairLoss.total
  rw [← Equiv.sum_comp idxEquiv1]
  exact Finset.sum_congr rfl fun c _ => v110_at x0 x1 x2 c

end Cert.ReferenceIdeal.RefValue

end
-- ==== Proof.ClassTerm.lean ====
/-
  One class's contribution as the kernel body computes it.

  The body handles the eight classes of a block one after the other with the same arithmetic: from the class's
  [512, 1, 512] slices of the student's and the teacher's blocks and its [1, 512] row of the transposed labels it
  forms the clamped pairwise distances, the masked means, the normalised masked difference, the smooth-L1 terms and
  their average, a [1, 1] value. `classTerm` is that arithmetic as a function of the three loaded slices: the
  composition of the first class's generated payloads.
-/
import proofs.«405246_j49555332661898_4_alg».proof.Proof.Gen.KernelIdeal.Skeleton

noncomputable section

namespace Cert.KernelIdeal.ClassValue

open Idealize.ShloMosaic Cert.KernelIdeal Cert.KernelIdeal.Gen

variable {F : FTy → Type} [FloatOps F]

/-- The [1, 1] loss of one class from its three loaded slices. -/
def classTerm (x0 x1 : Vec F S512x1x512 .f32) (x2 : Vec F S1x512 .i32) : FVec F S1x1 .f32 :=
  k0_pay9 (k0_pay7 (k0_pay3 x2))
    (k0_pay8 (k0_pay2 (F := F)) (k0_pay3 x2) (k0_pay4 x2) (k0_pay5 x0) (k0_pay6 x1))

end Cert.KernelIdeal.ClassValue

end
-- ==== Proof.ClassDist.lean ====
/-
  The clamped pairwise distances of one class, as the kernel body computes them, read at an index.
-/
import proofs.«405246_j49555332661898_4_alg».proof.Proof.Gen.KernelIdeal.Skeleton
import proofs.«405246_j49555332661898_4_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.ClassValue

open Idealize.ShloMosaic Idealize.ShloMosaic.ValueIdx Cert.KernelIdeal Cert.KernelIdeal.Gen

/-! ## The layout operations of the body, read at explicit coordinates -/

/-- A [512, 1, 512] slice cast to [512, 512] reads, at (i, k), the slice at (i, 0, k). -/
theorem cast3_at (x : Vec Ideal S512x1x512 .f32) (h : S512x1x512.ShapeCasts S512x512) (i k : Fin 512) :
    shapeCast S512x512 x h (ix2 i k) = x (ix3 i (0 : Fin 1) k) :=
  shapeCast_apply x h _ _ (by
    rw [Shape.rowMajor_val_three, Shape.rowMajor_val_two]
    show (i.val * 1 + 0) * 512 + k.val = i.val * 512 + k.val
    omega)

/-- A [512] vector cast to a [512, 1] column reads, at (i, u), the vector at i. -/
theorem castCol_at (v : FVec Ideal S512 .f32) (h : S512.ShapeCasts S512x1) (i : Fin 512) (u : Fin 1) :
    shapeCast S512x1 v h (ix2 i u) = v (ix1 i) :=
  shapeCast_apply v h _ _ (by
    have hu : u.val = 0 := by omega
    rw [Shape.rowMajor_val_one, Shape.rowMajor_val_two]
    show i.val = i.val * 1 + u.val
    omega)

/-- A [512, 1] column broadcast to [512, 512] reads, at (i, j), the column at (i, 0). -/
theorem bcastCol_at (v : FVec Ideal S512x1 .f32) (h : S512x1.Broadcasts S512x512) (i j : Fin 512) :
    broadcastTo S512x512 v h (ix2 i j) = v (ix2 i (0 : Fin 1)) := by
  refine broadcastTo_apply v h (ix2 i j) (ix2 i (0 : Fin 1)) fun ax => ?_
  match ax with
  | ⟨0, _⟩ => rfl
  | ⟨1, _⟩ => rfl

/-- The row sums of the squares: a lane sum at i is the sum over the row's coordinates. -/
theorem rowsum_at (y : FVec Ideal S512x512 .f32) (h : S512x512.Reduces [1] S512)
    (hφ : FTy.f32 = FTy.f32 ∨ FTy.f32 = FTy.bf16) (hacc : (0x00000000#32 : BitVec 32) = 0x00000000#32) (i : Fin 512) :
    multiReduction (F := Ideal) .add [1] S512 (mulf y y) 0x00000000#32 h hφ hacc (ix1 i)
      = ∑ k : Fin 512, y (ix2 i k) * y (ix2 i k) := by
  refine (Ideal.multiReduction_add_single (mulf y y) 0x00000000#32 h hφ hacc (ix1 i)).trans ?_
  refine Finset.sum_congr rfl fun k _ => ?_
  rw [show h.lift (ix1 i) k = ix2 i k from funext fun a => Fin.ext (by
    match a with
    | ⟨0, _⟩ => rfl
    | ⟨1, _⟩ => rfl)]
  rfl

/-! ## The matmul of the slice with its transpose -/

theorem lhs_dot_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_dot_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhs_dot_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhs_dot_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The product of a [512, 512] matrix with another, into the zero accumulator, at (i, j): the sum over k of the left
    factor at (i, k) times the right at (k, j). -/
theorem matmul_at (l r : FVec Ideal S512x512 .f32) (i j : Fin 512) :
    matmul dot_S512x512_S512x512_S512x512_1_0_0_1_n_n (some .fp32) l r (constant (F := Ideal) S512x512 .f32 0x00000000#32) (ix2 i j)
      = ∑ k : Fin 512, l (ix2 i k) * r (ix2 k j) := by
  simp only [matmul]
  rw [Ideal.matmul_constant_zero_apply, ← Equiv.sum_comp (ValueIdx.contrEquiv1 dot_S512x512_S512x512_S512x512_1_0_0_1_n_n 512 rfl rfl).symm]
  refine Finset.sum_congr rfl fun k _ => ?_
  have hk := ValueIdx.contrEquiv1_symm_val dot_S512x512_S512x512_S512x512_1_0_0_1_n_n 512 rfl rfl k
  have el : dot_S512x512_S512x512_S512x512_1_0_0_1_n_n.lhsIdx (ix2 i j) ((ValueIdx.contrEquiv1 dot_S512x512_S512x512_S512x512_1_0_0_1_n_n 512 rfl rfl).symm k) = ix2 i k := funext fun a => Fin.ext (by
    match a with
    | ⟨0, _⟩ => exact lhs_dot_0 _ _
    | ⟨1, _⟩ => exact (lhs_dot_1 _ _).trans hk)
  have er : dot_S512x512_S512x512_S512x512_1_0_0_1_n_n.rhsIdx (ix2 i j) ((ValueIdx.contrEquiv1 dot_S512x512_S512x512_S512x512_1_0_0_1_n_n 512 rfl rfl).symm k) = ix2 k j := funext fun a => Fin.ext (by
    match a with
    | ⟨0, _⟩ => exact (rhs_dot_0 _ _).trans hk
    | ⟨1, _⟩ => exact rhs_dot_1 _ _)
  rw [el, er]

/-! ## The chain of one class -/

/-- The distance chain over a [512, 512] matrix of rows, at (i, j). -/
theorem chain_at (y : FVec Ideal S512x512 .f32) (h1 : S512x512.Reduces [1] S512)
    (hφ : FTy.f32 = FTy.f32 ∨ FTy.f32 = FTy.bf16) (hacc : (0x00000000#32 : BitVec 32) = 0x00000000#32)
    (h2 : S512.ShapeCasts S512x1) (h3 : S512x1.Broadcasts S512x512) (h4 : S512x1.Transposes [1, 0] S1x512)
    (h5 : S1x512.Broadcasts S512x512) (h6 : S512x512.Transposes [1, 0] S512x512) (i j : Fin 512) :
    sqrt
      (maximumf
        (subf
          (addf
            (broadcastTo S512x512 (shapeCast S512x1 (multiReduction (F := Ideal) .add [1] S512 (mulf y y) 0x00000000#32 h1 hφ hacc) h2) h3)
            (broadcastTo S512x512
              (transpose S1x512 [1, 0] (shapeCast S512x1 (multiReduction (F := Ideal) .add [1] S512 (mulf y y) 0x00000000#32 h1 hφ hacc) h2) h4)
              h5))
          (mulf (broadcast S512x512 (FloatOps.ofBits (F := Ideal) .f32 0x40000000#32))
            (matmul dot_S512x512_S512x512_S512x512_1_0_0_1_n_n (some .fp32) y (transpose S512x512 [1, 0] y h6)
              (constant (F := Ideal) S512x512 .f32 0x00000000#32))))
        (broadcast S512x512 (FloatOps.ofBits (F := Ideal) .f32 0x322BCC77#32)))
      (ix2 i j)
      = Cert.PairLoss.dist (fun (i k : Fin 512) => y (ix2 i k)) i j := by
  show Ideal.sqrt (max
      (broadcastTo S512x512 (shapeCast S512x1 (multiReduction (F := Ideal) .add [1] S512 (mulf y y) 0x00000000#32 h1 hφ hacc) h2) h3 (ix2 i j)
        + broadcastTo S512x512
            (transpose S1x512 [1, 0] (shapeCast S512x1 (multiReduction (F := Ideal) .add [1] S512 (mulf y y) 0x00000000#32 h1 hφ hacc) h2) h4)
            h5 (ix2 i j)
        - PairLoss.two * matmul dot_S512x512_S512x512_S512x512_1_0_0_1_n_n (some .fp32) y (transpose S512x512 [1, 0] y h6)
              (constant (F := Ideal) S512x512 .f32 0x00000000#32) (ix2 i j))
      PairLoss.eps) = _
  rw [bcastCol_at, castCol_at, rowsum_at, broadcastTo_1b_ab_apply, transpose_ix2_apply, castCol_at, rowsum_at, matmul_at]
  unfold PairLoss.dist PairLoss.sq PairLoss.gram
  have e : ∑ k : Fin 512, y (ix2 i k) * transpose S512x512 [1, 0] y h6 (ix2 k j) = ∑ k : Fin 512, y (ix2 i k) * y (ix2 j k) :=
    Finset.sum_congr rfl fun k _ => congrArg (y (ix2 i k) * ·) (transpose_ix2_apply y h6 k j)
  rw [e]

/-! ## The two payloads -/

/-- The teacher's payload is the student's, on the other slice. -/
theorem pay6_eq {F : FTy → Type} [FloatOps F] : k0_pay6 (F := F) = k0_pay5 (F := F) := rfl

/-- The student's distance matrix of one class at (i, j): the clamped distance between rows i and j of the slice. -/
theorem pay5_apply (x0 : Vec Ideal S512x1x512 .f32) (i j : Fin 512) :
    k0_pay5 (F := Ideal) x0 (ix2 i j)
      = Cert.PairLoss.dist (fun (i k : Fin 512) => x0 (ix3 i (0 : Fin 1) k)) i j := by
  unfold k0_pay5
  refine (chain_at _ _ _ _ _ _ _ _ _ i j).trans ?_
  exact congrArg (fun f => Cert.PairLoss.dist f i j) (funext fun a => funext fun k => cast3_at x0 _ a k)

/-- The teacher's distance matrix of one class at (i, j). -/
theorem pay6_apply (x1 : Vec Ideal S512x1x512 .f32) (i j : Fin 512) :
    k0_pay6 (F := Ideal) x1 (ix2 i j)
      = Cert.PairLoss.dist (fun (i k : Fin 512) => x1 (ix3 i (0 : Fin 1) k)) i j := by
  rw [pay6_eq]
  exact pay5_apply x1 i j

end Cert.KernelIdeal.ClassValue

end
-- ==== Proof.ClassValue.lean ====
/-
  One class's term read at its one index: it is arrangement K of the class loss (Spec.lean) of the slices' rows.

  The term is a composition of payloads. Each is read at an index by pushing the index through its pointwise
  operations; the operations that move data (a cast that adds a unit axis, a transpose of a row or a column, a
  broadcast of a column, a row or a single entry, a sum along the rows or down a column) are each read once, at literal
  coordinates. The two-step sum (along the rows of a [512, 512] array, then down the resulting column) is the double sum
  over i and j that the class loss is written with, so the masked means, their clamped reciprocals, the smooth-L1 terms
  and their average meet the specification's arrangement K term for term; only the words of one and of zero are
  evaluated.
-/
import proofs.«405246_j49555332661898_4_alg».proof.Proof.ClassTerm
import proofs.«405246_j49555332661898_4_alg».proof.Proof.ClassDist
import proofs.«405246_j49555332661898_4_alg».proof.Proof.Spec
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.ClassValue

open Idealize.ShloMosaic Idealize.ShloMosaic.ValueIdx Cert.KernelIdeal Cert.KernelIdeal.Gen
open scoped BigOperators

namespace Term

/-! ## Layout operations and sums at literal coordinates -/

section Layout
variable {α : Type}

/-- A [512] array cast to the column [512, 1] reads, at (i, u), the operand at i. -/
private theorem cast_col_apply (v : S512.Idx → α) (h : S512.ShapeCasts S512x1) (i : Fin 512) (u : Fin 1) :
    shapeCast S512x1 v h (ix2 i u) = v (ix1 i) :=
  shapeCast_apply v h _ _ (by
    have hu : u.val = 0 := by omega
    rw [Shape.rowMajor_val_one, Shape.rowMajor_val_two]
    show i.val = i.val * 1 + u.val
    rw [hu, Nat.mul_one, Nat.add_zero])

/-- A [1] array cast to [1, 1] reads its one element. -/
private theorem cast_one_apply (v : S1.Idx → α) (h : S1.ShapeCasts S1x1) (u w : Fin 1) :
    shapeCast S1x1 v h (ix2 u w) = v (ix1 (0 : Fin 1)) :=
  shapeCast_apply v h _ _ (by
    have hu : u.val = 0 := by omega
    have hw : w.val = 0 := by omega
    rw [Shape.rowMajor_val_one, Shape.rowMajor_val_two]
    show 0 = u.val * 1 + w.val
    rw [hu, hw])

/-- A column [512, 1] broadcast to [512, 512] reads, at (i, j), the column at i. -/
private theorem bcast_col_apply (v : S512x1.Idx → α) (h : S512x1.Broadcasts S512x512) (i j : Fin 512) :
    broadcastTo S512x512 v h (ix2 i j) = v (ix2 i (0 : Fin 1)) := by
  refine broadcastTo_apply v h (ix2 i j) (ix2 i (0 : Fin 1)) fun ax => ?_
  match ax with
  | ⟨0, _⟩ => rfl
  | ⟨1, _⟩ => rfl

/-- A [1, 1] array broadcast to [512, 512] reads its one element everywhere. -/
private theorem bcast_one_apply (v : S1x1.Idx → α) (h : S1x1.Broadcasts S512x512) (i j : Fin 512) :
    broadcastTo S512x512 v h (ix2 i j) = v (ix2 (0 : Fin 1) (0 : Fin 1)) := by
  refine broadcastTo_apply v h (ix2 i j) (ix2 (0 : Fin 1) (0 : Fin 1)) fun ax => ?_
  match ax with
  | ⟨0, _⟩ => rfl
  | ⟨1, _⟩ => rfl

end Layout

/-! ## The transpose of the label row -/

section Transposes
variable {α : Type}

/-- A row [1, 512] transposed to a column reads, at (i, u), the row at (u, i). -/
private theorem transp_row_apply (v : S1x512.Idx → α) (h : S1x512.Transposes [1, 0] S512x1) (i : Fin 512) (u : Fin 1) :
    transpose S512x1 ([1, 0] : List (Fin 2)) v h (ix2 i u) = v (ix2 u i) :=
  transpose_ix2_apply v h i u

end Transposes

/-! ## Sums along the rows, down a column, along a row -/

section Sums

/-- The sum along the rows of a [512, 512] array, at i, is the sum over k of its entries (i, k). -/
private theorem rowsum_apply (v : FVec Ideal S512x512 .f32) (h : S512x512.Reduces [1] S512) (hφ : FKind.Formats .f32)
    (hacc : (0x00000000#32 : BitVec 32) = 0x00000000#32) (i : Fin 512) :
    multiReduction (F := Ideal) .add ([1] : List (Fin 2)) S512 v 0x00000000#32 h hφ hacc (ix1 i) = ∑ k : Fin 512, v (ix2 i k) := by
  refine (Ideal.multiReduction_add_single v 0x00000000#32 h hφ hacc (ix1 i)).trans ?_
  refine Finset.sum_congr rfl fun k _ => ?_
  exact congrArg v (funext fun a => Fin.ext (by match a with | ⟨0, _⟩ => rfl | ⟨1, _⟩ => rfl))

/-- The sum down a column [512, 1], at its one index, is the sum over i of its entries (i, 0). -/
private theorem colsum_apply (v : FVec Ideal S512x1 .f32) (h : S512x1.Reduces [0] S1) (hφ : FKind.Formats .f32)
    (hacc : (0x00000000#32 : BitVec 32) = 0x00000000#32) (u : Fin 1) :
    multiReduction (F := Ideal) .add ([0] : List (Fin 2)) S1 v 0x00000000#32 h hφ hacc (ix1 u) = ∑ i : Fin 512, v (ix2 i (0 : Fin 1)) := by
  refine (Ideal.multiReduction_add_single v 0x00000000#32 h hφ hacc (ix1 u)).trans ?_
  refine Finset.sum_congr rfl fun k _ => ?_
  exact congrArg v (funext fun a => Fin.ext (by
    match a with
    | ⟨0, _⟩ => rfl
    | ⟨1, _⟩ => show (u : ℕ) = 0; omega))

/-- The sum along a row [1, 512], at its one index, is the sum over j of its entries (0, j). -/
private theorem lanesum_apply (v : FVec Ideal S1x512 .f32) (h : S1x512.Reduces [1] S1) (hφ : FKind.Formats .f32)
    (hacc : (0x00000000#32 : BitVec 32) = 0x00000000#32) (u : Fin 1) :
    multiReduction (F := Ideal) .add ([1] : List (Fin 2)) S1 v 0x00000000#32 h hφ hacc (ix1 u) = ∑ j : Fin 512, v (ix2 (0 : Fin 1) j) := by
  refine (Ideal.multiReduction_add_single v 0x00000000#32 h hφ hacc (ix1 u)).trans ?_
  refine Finset.sum_congr rfl fun k _ => ?_
  exact congrArg v (funext fun a => Fin.ext (by
    match a with
    | ⟨0, _⟩ => show (u : ℕ) = 0; omega
    | ⟨1, _⟩ => rfl))

end Sums

/-! ## The off-diagonal indicator -/

section OffDiag

/-- The row-coordinate iota reads the row as a word. -/
private theorem iota_row_apply (h : S512x512.Iotas .tc 32 [0]) (i j : Fin 512) :
    iota .tc S512x512 32 ([0] : List (Fin 2)) h (ix2 i j) = BitVec.ofNat 32 i.val := by
  show BitVec.ofNat 32 (0 * 512 + i.val) = _
  rw [Nat.zero_mul, Nat.zero_add]

/-- The column-coordinate iota reads the column as a word. -/
private theorem iota_col_apply (h : S512x512.Iotas .tc 32 [1]) (i j : Fin 512) :
    iota .tc S512x512 32 ([1] : List (Fin 2)) h (ix2 i j) = BitVec.ofNat 32 j.val := by
  show BitVec.ofNat 32 (0 * 512 + j.val) = _
  rw [Nat.zero_mul, Nat.zero_add]

/-- Two coordinates below 512 are different words exactly when they differ; widened and converted, the test is 0 on the
    diagonal and 1 off it. -/
private theorem ne_word_apply (i j : Fin 512) :
    (((((IntOp.cmpi .ne (BitVec.ofNat 32 i.val) (BitVec.ofNat 32 j.val)).setWidth 32).toInt : ℝ) : EReal))
      = Cert.PairLoss.offK i j := by
  unfold Cert.PairLoss.offK
  by_cases hij : i = j
  · subst hij
    rw [if_pos rfl]
    simp [IntOp.cmpi]
  · rw [if_neg hij]
    have hne : BitVec.ofNat 32 i.val ≠ BitVec.ofNat 32 j.val := by
      intro e
      have := congrArg BitVec.toNat e
      simp only [BitVec.toNat_ofNat] at this
      have hi := i.isLt
      have hj := j.isLt
      exact hij (Fin.ext (by omega))
    have hb : (BitVec.ofNat 32 i.val != BitVec.ofNat 32 j.val) = true := bne_iff_ne.mpr hne
    simp [IntOp.cmpi, hb]

end OffDiag

/-! ## Two more pointwise operations read at an index -/

section Pointwise
variable {s : Shape} {φ : FTy}

/-- An absolute value at an index is the larger of the element and its negation. -/
private theorem absf_apply (a : FVec Ideal s φ) (i : s.Idx) : absf a i = max (a i) (-(a i)) := rfl
/-- An integer comparison at an index compares the elements. -/
private theorem cmpi_apply {w : ℕ} (p : CmpIPredicate) (a b : IVec s w) (i : s.Idx) : cmpi p a b i = IntOp.cmpi p (a i) (b i) := rfl

end Pointwise

/-! ## The payloads at an index -/

/-- The off-diagonal indicator the body builds from the two iotas. -/
private theorem pay2_apply (i j : Fin 512) : (k0_pay2 (F := Ideal)) (ix2 i j) = Cert.PairLoss.offK i j := by
  unfold k0_pay2
  simp only [sitofp_apply, extui_apply, cmpi_apply, iota_row_apply, iota_col_apply]
  exact ne_word_apply i j

/-- The label row converted to floats: each entry the label read as a signed integer. -/
private theorem pay3_apply (x2 : Vec Ideal S1x512 .i32) (u : Fin 1) (j : Fin 512) :
    k0_pay3 (F := Ideal) x2 (ix2 u j) = (((x2 (ix2 u j)).toInt : ℝ) : EReal) := by
  unfold k0_pay3
  simp only [sitofp_apply, shapeCast_self]
  rfl

/-- The same as a column. -/
private theorem pay4_apply (x2 : Vec Ideal S1x512 .i32) (i : Fin 512) (u : Fin 1) :
    k0_pay4 (F := Ideal) x2 (ix2 i u) = (((x2 (ix2 u i)).toInt : ℝ) : EReal) := by
  unfold k0_pay4
  simp only [transp_row_apply, pay3_apply]

/-- The number of selected rows. -/
private theorem pay7_apply (v11 : FVec Ideal S1x512 .f32) (u w : Fin 1) :
    k0_pay7 (F := Ideal) v11 (ix2 u w) = ∑ j : Fin 512, v11 (ix2 (0 : Fin 1) j) := by
  unfold k0_pay7
  simp only [cast_one_apply, lanesum_apply]

/-- The smooth-L1 terms: with the indicator, the mask row and column and the two distance matrices read entry by entry,
    the body's normalised masked difference under the smooth-L1 function is the specification's. -/
private theorem pay8_apply (v4 : FVec Ideal S512x512 .f32) (v11 : FVec Ideal S1x512 .f32) (v12 : FVec Ideal S512x1 .f32)
    (v41 v42 : FVec Ideal S512x512 .f32) (mi : Fin 512 → EReal) (ds dt : Fin 512 → Fin 512 → EReal)
    (h4 : ∀ i j : Fin 512, v4 (ix2 i j) = Cert.PairLoss.offK i j)
    (h11 : ∀ j : Fin 512, v11 (ix2 (0 : Fin 1) j) = mi j)
    (h12 : ∀ i : Fin 512, v12 (ix2 i (0 : Fin 1)) = mi i)
    (h41 : ∀ i j : Fin 512, v41 (ix2 i j) = ds i j)
    (h42 : ∀ i j : Fin 512, v42 (ix2 i j) = dt i j) (i j : Fin 512) :
    k0_pay8 (F := Ideal) v4 v11 v12 v41 v42 (ix2 i j)
      = Cert.PairLoss.hub ((ds i j * Cert.PairLoss.invK ds mi - dt i j * Cert.PairLoss.invK dt mi)
          * Cert.PairLoss.maskK mi i j) := by
  unfold k0_pay8 Cert.PairLoss.hub Cert.PairLoss.invK Cert.PairLoss.meanK Cert.PairLoss.cnt Cert.PairLoss.num
    Cert.PairLoss.maskK
  simp only [select_apply, cmpf_apply, subf_apply, mulf_apply, absf_apply, divf_apply, maximumf_apply, broadcast_apply,
    bcast_one_apply, bcast_col_apply, broadcastTo_1b_ab_apply, cast_one_apply, colsum_apply, cast_col_apply,
    rowsum_apply, pay7_apply, h4, h11, h12, h41, h42, Ideal.ofBits_def, Ideal.ofBits_one_f32]
  rfl

/-- The average and its guard: with the count and the smooth-L1 terms read entry by entry. -/
private theorem pay9_apply (v48 : FVec Ideal S1x1 .f32) (v88 : FVec Ideal S512x512 .f32) (n : EReal)
    (t : Fin 512 → Fin 512 → EReal) (h48 : v48 (ix2 (0 : Fin 1) (0 : Fin 1)) = n)
    (h88 : ∀ i j : Fin 512, v88 (ix2 i j) = t i j) :
    k0_pay9 (F := Ideal) v48 v88 (ix2 (0 : Fin 1) (0 : Fin 1))
      = Scalar.select (Ideal.cmp .ogt n 1) (Ideal.div (∑ i, ∑ j, t i j) (max (n * n) 1)) 0 := by
  unfold k0_pay9
  simp only [select_apply, cmpf_apply, mulf_apply, divf_apply, maximumf_apply, broadcast_apply, cast_one_apply,
    colsum_apply, cast_col_apply, rowsum_apply, h48, h88, Ideal.ofBits_def, Ideal.ofBits_one_f32, Ideal.ofBits_zero_f32]
  rfl

end Term

/-- The class term's single entry is arrangement K of the loss of the rows `x0 (i, 0, k)`, `x1 (i, 0, k)` under the
    mask `x2 (0, i)` read as a signed integer. -/
theorem classTerm_apply (x0 x1 : Vec Ideal S512x1x512 .f32) (x2 : Vec Ideal S1x512 .i32) :
    classTerm (F := Ideal) x0 x1 x2 (ix2 (0 : Fin 1) (0 : Fin 1))
      = Cert.PairLoss.outK (Cert.PairLoss.dist fun (i : Fin 512) (k : Fin 512) => x0 (ix3 i (0 : Fin 1) k))
          (Cert.PairLoss.dist fun (i : Fin 512) (k : Fin 512) => x1 (ix3 i (0 : Fin 1) k))
          (fun i : Fin 512 => (((x2 (ix2 (0 : Fin 1) i)).toInt : ℝ) : EReal)) := by
  unfold classTerm
  refine (Term.pay9_apply _ _ (Cert.PairLoss.num fun i : Fin 512 => (((x2 (ix2 (0 : Fin 1) i)).toInt : ℝ) : EReal)) _ ?_ fun i j =>
    Term.pay8_apply _ _ _ _ _ (fun i : Fin 512 => (((x2 (ix2 (0 : Fin 1) i)).toInt : ℝ) : EReal)) _ _
      Term.pay2_apply (fun j => Term.pay3_apply x2 0 j) (fun i => Term.pay4_apply x2 i 0) (pay5_apply x0) (pay6_apply x1) i j).trans ?_
  · exact (Term.pay7_apply _ 0 0).trans (Finset.sum_congr rfl fun j _ => Term.pay3_apply x2 0 j)
  · rfl

end Cert.KernelIdeal.ClassValue

end
-- ==== Proof.BlockValue.lean ====
/-
  What one grid point stores, read at an index.

  At a grid point the body holds a [512, 8, 512] block of the student's features, the same block of the teacher's,
  and an [8, 512] block of the transposed labels: eight classes. It computes each class's term from that class's
  [512, 1, 512] slices and [1, 512] label row, stacks the eight [1, 1] results along the first axis and stores the
  [8, 1, 1] block whole. So entry (a, 0, 0) of the stored block is the a-th class's term at its one index, which at
  the ideal instance is arrangement K of the class loss (Spec.lean) of the rows `x (i, a, k)` under the mask
  `labels (a, i)`.
-/
import proofs.«405246_j49555332661898_4_alg».proof.Proof.Gen.KernelIdeal.Frame
import proofs.«405246_j49555332661898_4_alg».proof.Proof.ClassTerm
import proofs.«405246_j49555332661898_4_alg».proof.Proof.ClassValue
import proofs.«405246_j49555332661898_4_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.BlockValue

open Cert.KernelIdeal Cert.KernelIdeal.Gen Cert.KernelIdeal.ClassValue Idealize.ShloMosaic.ValueIdx

variable {F : FTy → Type} [FloatOps F]

/-- The [8, 1, 1] value the body stores: the eight class terms of the block's slices, stacked. -/
def blockTerm (x0 x1 : Vec F S512x8x512 .f32) (x2 : Vec F S8x512 .i32) : FVec F S8x1x1 .f32 :=
  shapeCast S8x1x1
    (concatenate S8x1 0
      [⟨S1x1, classTerm (View.ld x0 r0_0) (View.ld x1 r0_0) (View.ld x2 r0_1)⟩,
       ⟨S1x1, classTerm (View.ld x0 r0_2) (View.ld x1 r0_2) (View.ld x2 r0_3)⟩,
       ⟨S1x1, classTerm (View.ld x0 r0_4) (View.ld x1 r0_4) (View.ld x2 r0_5)⟩,
       ⟨S1x1, classTerm (View.ld x0 r0_6) (View.ld x1 r0_6) (View.ld x2 r0_7)⟩,
       ⟨S1x1, classTerm (View.ld x0 r0_8) (View.ld x1 r0_8) (View.ld x2 r0_9)⟩,
       ⟨S1x1, classTerm (View.ld x0 r0_10) (View.ld x1 r0_10) (View.ld x2 r0_11)⟩,
       ⟨S1x1, classTerm (View.ld x0 r0_12) (View.ld x1 r0_12) (View.ld x2 r0_13)⟩,
       ⟨S1x1, classTerm (View.ld x0 r0_14) (View.ld x1 r0_14) (View.ld x2 r0_15)⟩]
      concatenates_S1x1_S1x1_S1x1_S1x1_S1x1_S1x1_S1x1_S1x1_S8x1_d0)
    shapeCasts_S8x1_S8x1x1

/-- What the body leaves in the output's staging buffer is that stacked value: the body's one store covers the
    buffer, and the stored payload is the stack of the eight class terms (the same operations, class by class). -/
theorem out0_3_eq (x0 x1 : Vec F S512x8x512 .f32) (x2 : Vec F S8x512 .i32) :
    out0_3 x0 x1 x2 = View.canon [⟨r0_16, blockTerm x0 x1 x2⟩] := rfl

/-- Eight [1, 1] values stacked into [8, 1, 1], read at (a, 0, 0): the a-th value. -/
theorem stack_apply (p : Fin 8 → FVec F S1x1 .f32) (a : Fin 8) :
    shapeCast S8x1x1 (concatenate S8x1 0 [⟨S1x1, p 0⟩, ⟨S1x1, p 1⟩, ⟨S1x1, p 2⟩, ⟨S1x1, p 3⟩, ⟨S1x1, p 4⟩, ⟨S1x1, p 5⟩, ⟨S1x1, p 6⟩, ⟨S1x1, p 7⟩]
      concatenates_S1x1_S1x1_S1x1_S1x1_S1x1_S1x1_S1x1_S1x1_S8x1_d0) shapeCasts_S8x1_S8x1x1 (ix3 a (0 : Fin 1) (0 : Fin 1))
      = p a (ix2 (0 : Fin 1) (0 : Fin 1)) := by
  rw [shapeCast_apply _ _ (ix3 a (0 : Fin 1) (0 : Fin 1)) (ix2 a (0 : Fin 1)) (by
    rw [Shape.rowMajor_val_two, Shape.rowMajor_val_three]
    show a.val * 1 + 0 = (a.val * 1 + 0) * 1 + 0
    omega)]
  refine concatenate_apply_piece (t := S8x1) (0 : Fin 2)
    [⟨S1x1, p 0⟩, ⟨S1x1, p 1⟩, ⟨S1x1, p 2⟩, ⟨S1x1, p 3⟩, ⟨S1x1, p 4⟩, ⟨S1x1, p 5⟩, ⟨S1x1, p 6⟩, ⟨S1x1, p 7⟩] _ _
    a.val a.isLt S1x1 (p a) ?_ rfl a.val ?_ (ix2 (0 : Fin 1) (0 : Fin 1)) ?_ ?_
  · fin_cases a <;> rfl
  · fin_cases a <;> rfl
  · intro b hb
    match b with
    | ⟨0, _⟩ => exact absurd rfl hb
    | ⟨1, _⟩ => rfl
  · show a.val + 0 = a.val
    omega

theorem hz3 : (![0, 0, 0] : Fin 3 → Nat) = fun _ => 0 := funext fun a => by fin_cases a <;> rfl

/-- A class's feature slice of a block, read at (i, 0, k), is the block at (i, a, k). -/
theorem ld_feat (x : Vec F S512x8x512 .f32) (a : ℕ) (inb) (ha : a < 8) (i k : Fin 512) :
    View.ld x (Rect.unit (s := S512x8x512) ![0, a, 0] S512x1x512.size inb) (ix3 i (0 : Fin 1) k) = x (ix3 i (⟨a, ha⟩ : Fin 8) k) := by
  show x _ = x _
  congr 1
  funext d
  apply Fin.ext
  match d with
  | ⟨0, _⟩ => show 0 + 1 * i.val = i.val; omega
  | ⟨1, _⟩ => show a + 1 * 0 = a; omega
  | ⟨2, _⟩ => show 0 + 1 * k.val = k.val; omega

/-- A class's label row of a block, read at (0, i), is the block at (a, i). -/
theorem ld_lab (x : Vec F S8x512 .i32) (a : ℕ) (inb) (ha : a < 8) (i : Fin 512) :
    View.ld x (Rect.unit (s := S8x512) ![a, 0] S1x512.size inb) (ix2 (0 : Fin 1) i) = x (ix2 (⟨a, ha⟩ : Fin 8) i) := by
  show x _ = x _
  congr 1
  funext d
  apply Fin.ext
  match d with
  | ⟨0, _⟩ => show a + 1 * 0 = a; omega
  | ⟨1, _⟩ => show 0 + 1 * i.val = i.val; omega

theorem out0_3_block (x0 x1 : Vec F S512x8x512 .f32) (x2 : Vec F S8x512 .i32) :
    out0_3 x0 x1 x2 = blockTerm x0 x1 x2 := by
  rw [out0_3_eq]
  exact View.canon_unit_zero hz3 _ _

/-- The class term of the block's a-th class: of its a-th feature slices and label row. -/
def classOf (x0 x1 : Vec F S512x8x512 .f32) (x2 : Vec F S8x512 .i32) : Fin 8 → FVec F S1x1 .f32
  | ⟨0, _⟩ => classTerm (View.ld x0 r0_0) (View.ld x1 r0_0) (View.ld x2 r0_1)
  | ⟨1, _⟩ => classTerm (View.ld x0 r0_2) (View.ld x1 r0_2) (View.ld x2 r0_3)
  | ⟨2, _⟩ => classTerm (View.ld x0 r0_4) (View.ld x1 r0_4) (View.ld x2 r0_5)
  | ⟨3, _⟩ => classTerm (View.ld x0 r0_6) (View.ld x1 r0_6) (View.ld x2 r0_7)
  | ⟨4, _⟩ => classTerm (View.ld x0 r0_8) (View.ld x1 r0_8) (View.ld x2 r0_9)
  | ⟨5, _⟩ => classTerm (View.ld x0 r0_10) (View.ld x1 r0_10) (View.ld x2 r0_11)
  | ⟨6, _⟩ => classTerm (View.ld x0 r0_12) (View.ld x1 r0_12) (View.ld x2 r0_13)
  | ⟨7, _⟩ => classTerm (View.ld x0 r0_14) (View.ld x1 r0_14) (View.ld x2 r0_15)

/-- The stored block, at (a, 0, 0), is its a-th class's term at its one index. -/
theorem blockTerm_apply (x0 x1 : Vec F S512x8x512 .f32) (x2 : Vec F S8x512 .i32) (a : Fin 8) :
    blockTerm x0 x1 x2 (ix3 a (0 : Fin 1) (0 : Fin 1)) = classOf x0 x1 x2 a (ix2 (0 : Fin 1) (0 : Fin 1)) :=
  stack_apply (classOf x0 x1 x2) a

/-- One class of a block at the ideal instance: its term, at its one index, is arrangement K of the class loss of the
    block's a-th feature slices under its a-th label row. -/
theorem class_at (x0 x1 : Vec Ideal S512x8x512 .f32) (x2 : Vec Ideal S8x512 .i32) (a : ℕ) (ha : a < 8)
    (inb0 : ∀ d, (![0, a, 0] : Fin 3 → ℕ) d + S512x1x512.size d ≤ S512x8x512.size d)
    (inb2 : ∀ d, (![a, 0] : Fin 2 → ℕ) d + S1x512.size d ≤ S8x512.size d) :
    classTerm (F := Ideal) (View.ld x0 (Rect.unit (s := S512x8x512) ![0, a, 0] S512x1x512.size inb0))
        (View.ld x1 (Rect.unit (s := S512x8x512) ![0, a, 0] S512x1x512.size inb0))
        (View.ld x2 (Rect.unit (s := S8x512) ![a, 0] S1x512.size inb2)) (ix2 (0 : Fin 1) (0 : Fin 1))
      = Cert.PairLoss.outK (Cert.PairLoss.dist fun (i k : Fin 512) => x0 (ix3 i (⟨a, ha⟩ : Fin 8) k))
          (Cert.PairLoss.dist fun (i k : Fin 512) => x1 (ix3 i (⟨a, ha⟩ : Fin 8) k))
          (fun i : Fin 512 => (((x2 (ix2 (⟨a, ha⟩ : Fin 8) i)).toInt : ℝ) : EReal)) := by
  refine (classTerm_apply (View.ld x0 (Rect.unit (s := S512x8x512) ![0, a, 0] S512x1x512.size inb0))
    (View.ld x1 (Rect.unit (s := S512x8x512) ![0, a, 0] S512x1x512.size inb0))
    (View.ld x2 (Rect.unit (s := S8x512) ![a, 0] S1x512.size inb2))).trans ?_
  simp only [ld_feat x0 a inb0 ha, ld_feat x1 a inb0 ha, ld_lab x2 a inb2 ha]

/-- At the ideal instance the stored block's entry (a, 0, 0) is arrangement K of the class loss of the block's a-th
    feature slices under its a-th label row. -/
theorem blockTerm_class (x0 x1 : Vec Ideal S512x8x512 .f32) (x2 : Vec Ideal S8x512 .i32) (a : Fin 8) :
    blockTerm x0 x1 x2 (ix3 a (0 : Fin 1) (0 : Fin 1))
      = Cert.PairLoss.outK (Cert.PairLoss.dist fun (i k : Fin 512) => x0 (ix3 i a k))
          (Cert.PairLoss.dist fun (i k : Fin 512) => x1 (ix3 i a k))
          (fun i : Fin 512 => (((x2 (ix2 a i)).toInt : ℝ) : EReal)) := by
  rw [blockTerm_apply]
  fin_cases a
  · exact class_at x0 x1 x2 0 (by decide) inb_S512x8x512_S512x1x512_0_0_0 inb_S8x512_S1x512_0_0
  · exact class_at x0 x1 x2 1 (by decide) inb_S512x8x512_S512x1x512_0_1_0 inb_S8x512_S1x512_1_0
  · exact class_at x0 x1 x2 2 (by decide) inb_S512x8x512_S512x1x512_0_2_0 inb_S8x512_S1x512_2_0
  · exact class_at x0 x1 x2 3 (by decide) inb_S512x8x512_S512x1x512_0_3_0 inb_S8x512_S1x512_3_0
  · exact class_at x0 x1 x2 4 (by decide) inb_S512x8x512_S512x1x512_0_4_0 inb_S8x512_S1x512_4_0
  · exact class_at x0 x1 x2 5 (by decide) inb_S512x8x512_S512x1x512_0_5_0 inb_S8x512_S1x512_5_0
  · exact class_at x0 x1 x2 6 (by decide) inb_S512x8x512_S512x1x512_0_6_0 inb_S8x512_S1x512_6_0
  · exact class_at x0 x1 x2 7 (by decide) inb_S512x8x512_S512x1x512_0_7_0 inb_S8x512_S1x512_7_0

end Cert.KernelIdeal.BlockValue

end
-- ==== Proof.ArrayValue.lean ====
/-
  The kernel program's result, read back.

  The pallas_call runs ten grid points; point t fetches classes 8t … 8t + 7 of the two feature arrays and of the
  transposed labels, and writes block t of the [80, 1, 1] output array. Block by block (BlockValue.lean) entry
  (k, 0, 0) of the output is arrangement K of class k's loss (Spec.lean) of the feature rows `x (i, k, l)` under
  the mask `labels (i, k)`; the ten blocks tile the array; and the host line after the call sums the array's
  eighty entries from zero. So the program returns the sum over the classes of arrangement K of the class loss.
-/
import proofs.«405246_j49555332661898_4_alg».proof.Proof.Gen.KernelIdeal.Frame
import proofs.«405246_j49555332661898_4_alg».proof.Proof.BlockValue
import proofs.«405246_j49555332661898_4_alg».proof.Proof.Spec
import Idealize.ShloMosaic.Lib.Pipeline.Value
import Idealize.ShloMosaic.Lib.ValueIdx
import Idealize.ShloMosaic.Lib.IdealHost
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Cert.KernelIdeal.BlockValue Idealize.ShloMosaic.ValueIdx

variable (m : (ℓ : Loc nD τ sig) → Buf (Elt Ideal) ℓ) (ρ : Dev nD → PrngReg)

/-- The printed index maps, decided over the ten grid points: point t fetches class block t of each input and writes
    block t of the output. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The class that slot a of grid point t holds. -/
def classIx (t : Fin cfg0.N) (a : Fin 8) : Fin 80 :=
  ⟨8 * t.val + a.val, by have := t.isLt; have h : cfg0.N = 10 := N_0; omega⟩

/-- The transposed labels the region finds: the host's transpose of the label argument. -/
theorem V_labels (c : Dev nD) :
    (V m c main_v0 : S80x512.Idx → BitVec 32)
      = transpose S80x512 [1, 0] (m ((c : Thread nD τ).loc main_arg2)) transposes_S512x80_S80x512_1_0 := by
  show StableHlo.after hostOps0 (fun b => m (c, b)) (Proc.devRef .tc main_v0) = _
  after_results

/-- The student block at point t: rows of the argument at the block's classes. -/
theorem iblk_feat0 (c : Dev nD) (t : Fin cfg0.N) (a : Fin 8) (i k : Fin 512) :
    (iblk m c 0 t : Vec Ideal S512x8x512 .f32) (ix3 i a k)
      = (m ((c : Thread nD τ).loc main_arg0) : S512x80x512.Idx → EReal) (ix3 i (classIx t a) k) := by
  obtain ⟨e0, e1, e2, -⟩ := idx_facts t
  unfold iblk
  rw [View.read_apply]
  show V m c main_arg0 _ = _
  rw [V_main_arg0]
  congr 1
  funext d
  apply Fin.ext
  match d with
  | ⟨0, _⟩ => show win0_0.index t (0 : Fin 3) * 512 + 1 * i.val = i.val; rw [e0]; omega
  | ⟨1, _⟩ => show win0_0.index t (1 : Fin 3) * 8 + 1 * a.val = 8 * t.val + a.val; rw [e1]; omega
  | ⟨2, _⟩ => show win0_0.index t (2 : Fin 3) * 512 + 1 * k.val = k.val; rw [e2]; omega

/-- The teacher block at point t. -/
theorem iblk_feat1 (c : Dev nD) (t : Fin cfg0.N) (a : Fin 8) (i k : Fin 512) :
    (iblk m c 1 t : Vec Ideal S512x8x512 .f32) (ix3 i a k)
      = (m ((c : Thread nD τ).loc main_arg1) : S512x80x512.Idx → EReal) (ix3 i (classIx t a) k) := by
  obtain ⟨-, -, -, e0, e1, e2, -⟩ := idx_facts t
  unfold iblk
  rw [View.read_apply]
  show V m c main_arg1 _ = _
  rw [V_main_arg1]
  congr 1
  funext d
  apply Fin.ext
  match d with
  | ⟨0, _⟩ => show win0_1.index t (0 : Fin 3) * 512 + 1 * i.val = i.val; rw [e0]; omega
  | ⟨1, _⟩ => show win0_1.index t (1 : Fin 3) * 8 + 1 * a.val = 8 * t.val + a.val; rw [e1]; omega
  | ⟨2, _⟩ => show win0_1.index t (2 : Fin 3) * 512 + 1 * k.val = k.val; rw [e2]; omega

/-- The label block at point t: the label argument's column of the block's class. -/
theorem iblk_lab (c : Dev nD) (t : Fin cfg0.N) (a : Fin 8) (i : Fin 512) :
    (iblk m c 2 t : Vec Ideal S8x512 .i32) (ix2 a i)
      = (m ((c : Thread nD τ).loc main_arg2) : S512x80.Idx → BitVec 32) (ix2 i (classIx t a)) := by
  obtain ⟨-, -, -, -, -, -, e0, e1, -⟩ := idx_facts t
  unfold iblk
  rw [View.read_apply]
  show V m c main_v0 _ = _
  rw [V_labels]
  refine transpose_apply _ _ _ _ _ fun b => ?_
  match b with
  | ⟨0, _⟩ => show 8 * t.val + a.val = win0_2.index t (0 : Fin 2) * 8 + 1 * a.val; rw [e0]; omega
  | ⟨1, _⟩ => show i.val = win0_2.index t (1 : Fin 2) * 512 + 1 * i.val; rw [e1]; omega

/-- The output array the run leaves: entry (k, 0, 0) is arrangement K of class k's loss. -/
def outArr (c : Dev nD) : S80x1x1.Idx → EReal := fun j =>
  Cert.PairLoss.classK (m ((c : Thread nD τ).loc main_arg0)) (m ((c : Thread nD τ).loc main_arg1))
    (m ((c : Thread nD τ).loc main_arg2)) ⟨(j 0).val, (j 0).isLt⟩

/-- Entry (a, 0, 0) of what point t stores is arrangement K of the loss of class 8t + a. -/
theorem block_at (c : Dev nD) (t : Fin cfg0.N) (a : Fin 8) :
    blockTerm (iblk m c 0 t) (iblk m c 1 t) (iblk m c 2 t) (ix3 a (0 : Fin 1) (0 : Fin 1))
      = Cert.PairLoss.classK (m ((c : Thread nD τ).loc main_arg0)) (m ((c : Thread nD τ).loc main_arg1))
          (m ((c : Thread nD τ).loc main_arg2)) (classIx t a) := by
  refine (blockTerm_class (iblk m c 0 t) (iblk m c 1 t) (iblk m c 2 t) a).trans ?_
  simp only [iblk_feat0 m c t a, iblk_feat1 m c t a, iblk_lab m c t a]
  rfl

/-- WHAT POINT t WRITES BACK is block t of that array. -/
theorem flushed_eq (c : Dev nD) (t : Fin cfg0.N) :
    (dats m 0 c).flushed 3 t = ((cfg0.win 3).blk t).view.read (Elt Ideal) (outArr m c) := by
  show (cfg0.win 3).cut (grid0.coords t) ((dats m 0 c).after 3 t) = _
  rw [after0_3, out0_3_block]
  have hB := block_at m c t
  generalize blockTerm (iblk m c 0 t) (iblk m c 1 t) (iblk m c 2 t) = B at hB ⊢
  have hG : ∀ j : S80x1x1.Idx, outArr m c j
      = Cert.PairLoss.classK (m ((c : Thread nD τ).loc main_arg0)) (m ((c : Thread nD τ).loc main_arg1))
          (m ((c : Thread nD τ).loc main_arg2)) ⟨(j 0).val, (j 0).isLt⟩ := fun _ => rfl
  generalize outArr m c = G at hG ⊢
  obtain ⟨-, -, -, -, -, -, -, -, e0, e1, e2⟩ := idx_facts t
  funext y
  have h0 : (y 0).val < 8 := (y 0).isLt
  have h1 : (y 1).val < 1 := (y 1).isLt
  have h2 : (y 2).val < 1 := (y 2).isLt
  have hy : (cfg0.win 3).xinj (grid0.coords t) y = ix3 (⟨(y 0).val, h0⟩ : Fin 8) (0 : Fin 1) (0 : Fin 1) := by
    funext d
    apply Fin.ext
    match d with
    | ⟨0, _⟩ => rfl
    | ⟨1, _⟩ => show (y 1).val = 0; omega
    | ⟨2, _⟩ => show (y 2).val = 0; omega
  rw [View.read_apply]
  show B ((cfg0.win 3).xinj (grid0.coords t) y) = G (((cfg0.win 3).blk t).view.emb y)
  rw [hy, hB, hG]
  refine congrArg (Cert.PairLoss.classK (m ((c : Thread nD τ).loc main_arg0)) (m ((c : Thread nD τ).loc main_arg1))
    (m ((c : Thread nD τ).loc main_arg2))) (Fin.ext ?_)
  show 8 * t.val + (y 0).val = win0_3.index t (0 : Fin 3) * 8 + 1 * (y 0).val
  rw [e0]; omega

/-- An index of the output array is in point t's block iff each coordinate is in the block's range on its axis. -/
theorem mem_blk (t : Fin cfg0.N) (i : S80x1x1.Idx) :
    i ∈ ((cfg0.win 3).blk t).view.set ↔ ∀ a : Fin 3, win0_3.index t a * S8x1x1.size a ≤ (i a).val
      ∧ (i a).val < win0_3.index t a * S8x1x1.size a + S8x1x1.size a := by
  show i ∈ ((View.whole main_v1).slice (win0_3.rect t)).set ↔ _
  rw [View.set_slice_whole, Rect.mem_set_unit]
  exact Iff.rfl

/-- Every entry of the output array is in the block of the point that holds its class: entry k in block k / 8. -/
theorem cover (i : S80x1x1.Idx) :
    ∃ t : Fin cfg0.N, (cfg0.win 3).flush t = true ∧ i ∈ ((cfg0.win 3).blk t).view.set := by
  have h0 : (i 0).val < 80 := (i 0).isLt
  have h1 : (i 1).val < 1 := (i 1).isLt
  have h2 : (i 2).val < 1 := (i 2).isLt
  have hN : cfg0.N = 10 := N_0
  have ht : (i 0).val / 8 < cfg0.N := by omega
  obtain ⟨-, -, -, -, -, -, -, -, e0, e1, e2⟩ := idx_facts ⟨(i 0).val / 8, ht⟩
  refine ⟨⟨(i 0).val / 8, ht⟩, flush0_3 _, ?_⟩
  rw [mem_blk]
  intro a
  match a with
  | ⟨0, _⟩ =>
    show win0_3.index ⟨(i 0).val / 8, ht⟩ (0 : Fin 3) * 8 ≤ (i 0).val
      ∧ (i 0).val < win0_3.index ⟨(i 0).val / 8, ht⟩ (0 : Fin 3) * 8 + 8
    rw [e0]
    show (i 0).val / 8 * 8 ≤ (i 0).val ∧ (i 0).val < (i 0).val / 8 * 8 + 8
    omega
  | ⟨1, _⟩ =>
    show win0_3.index ⟨(i 0).val / 8, ht⟩ (1 : Fin 3) * 1 ≤ (i 1).val
      ∧ (i 1).val < win0_3.index ⟨(i 0).val / 8, ht⟩ (1 : Fin 3) * 1 + 1
    rw [e1]; omega
  | ⟨2, _⟩ =>
    show win0_3.index ⟨(i 0).val / 8, ht⟩ (2 : Fin 3) * 1 ≤ (i 2).val
      ∧ (i 2).val < win0_3.index ⟨(i 0).val / 8, ht⟩ (2 : Fin 3) * 1 + 1
    rw [e2]; omega

/-- THE ARRAY after the run: every class's loss, in arrangement K. -/
theorem final (c : Dev nD) : (dats m 0 c).arrAt 3 cfg0.N = outArr m c :=
  (dats m 0 c).arrAt_eq_of_cover 3 (outArr m c) (fun t _ => flushed_eq m c t) cover

/-- The entries of an [80, 1, 1] array are indexed by the class coordinate. -/
def idxEquiv3 : Fin 80 ≃ S80x1x1.Idx where
  toFun k := ix3 k (0 : Fin 1) (0 : Fin 1)
  invFun j := ⟨(j 0).val, (j 0).isLt⟩
  left_inv _ := rfl
  right_inv j := by
    funext d
    apply Fin.ext
    match d with
    | ⟨0, _⟩ => rfl
    | ⟨1, _⟩ => show 0 = (j 1).val; have h : (j 1).val < 1 := (j 1).isLt; omega
    | ⟨2, _⟩ => show 0 = (j 2).val; have h : (j 2).val < 1 := (j 2).isLt; omega

/-- THE RESULT: the host's sum of the output array over all its entries, from the zero word, is the sum of the
    eighty class losses. -/
theorem tail_eq (c : Dev nD) :
    Pipeline.afterTail₀ cfgs (dats m) 0 (V0 m) [hostOps1] c main_v2
      = fun _ => ∑ k : Fin 80, Cert.PairLoss.classK (m ((c : Thread nD τ).loc main_arg0))
          (m ((c : Thread nD τ).loc main_arg1)) (m ((c : Thread nD τ).loc main_arg2)) k := by
  unfold Pipeline.afterTail₀
  show StableHlo.after hostOps1 _ (Proc.devRef .tc main_v2) = _
  after_results
  have hw : Pipeline.withArrays (cfgs 0).spec c (V0 m c) (fun w => (dats m 0 c).arrAt w (cfgs 0).N)
      (Proc.devRef .tc main_v1) = outArr m c :=
    (Pipeline.withArrays_arr spec0 launch0.win.arr_inj c _ _ 3).trans (final m c)
  rw [hw]
  have hG : ∀ k : Fin 80, outArr m c (idxEquiv3 k)
      = Cert.PairLoss.classK (m ((c : Thread nD τ).loc main_arg0)) (m ((c : Thread nD τ).loc main_arg1))
          (m ((c : Thread nD τ).loc main_arg2)) k := fun _ => rfl
  generalize outArr m c = G at hG ⊢
  funext j
  rw [hostReduceAdd_apply, Ideal.hostReduceAdd_total _ (fun b => b.elim0), ← Equiv.sum_comp idxEquiv3]
  simp only [hG]
  exact (congrArg (· + _) Ideal.ofBits_zero_f32).trans (zero_add _)

/-- The run, read: the result at the sum of the class losses in arrangement K, the arguments unchanged. -/
theorem run : θ_run defs (onTc (τ := τ) (main (F := Ideal))) ⟨m, fun _ => 0, ρ⟩ fun r => ∀ c : Dev nD,
      r.2.mem ((c.tc : Thread nD τ).loc main_v2)
        = (fun _ => ∑ k : Fin 80, Cert.PairLoss.classK (m ((c.tc : Thread nD τ).loc main_arg0))
            (m ((c.tc : Thread nD τ).loc main_arg1)) (m ((c.tc : Thread nD τ).loc main_arg2)) k)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v2 (Pipeline.mem_restRefs_of main_v2 (by decide) (by decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).2 main_arg2 (Pipeline.mem_restRefs_of main_arg2 (by decide) (by decide))).trans
          (W_main_arg2 m (dats m) c)⟩)
    (run_main m ρ)

end Cert.KernelIdeal.ArrayValue

end
-- ==== Proof.lean ====
/-
  The certificate: the kernel's per-class relational distance loss against the jnp reference, over the extended reals,
  for finite float inputs and labels that are 0 or 1.

  Both programs return the sum over the eighty classes of a class loss built from the clamped pairwise Euclidean
  distances of the student's and the teacher's feature rows: each side's distances are normalised by their masked
  off-diagonal mean, the difference goes through the smooth-L1 function, and the selected pairs are averaged
  (Spec.lean). The two programs arrange the masking differently. The kernel multiplies the normalised difference by
  the mask `m_i m_j [i ≠ j]` BEFORE the smooth-L1 function and normalises by multiplying with the reciprocal of
  `max mean ε`; the reference zeroes the diagonal of the distances, divides by `max mean ε`, and multiplies by
  `m_i m_j` AFTER the smooth-L1 function. For a mask with entries in {0, 1} these agree (`PairLoss.outK_eq_outR`):
  the divisor is at least ε > 0, so dividing is multiplying by the reciprocal; where the mask is 1 both sides are the
  smooth-L1 of the same number; where it is 0 the kernel's side is the smooth-L1 of `x · 0 = 0`, which is 0, and the
  reference's is `_ · 0 = 0`. For labels outside {0, 1} the two differ (the smooth-L1 function is not homogeneous),
  so the precondition asks that every label be 0 or 1, as the reference's own comment says of them.

  The kernel program's result is read off its frame run (ClassTerm, ClassDist, ClassValue, BlockValue, ArrayValue),
  the reference's off its run one operation at a time (RefRun, RefRead, RefValue), the labels' range out of the printed
  precondition (PreMask). The idealization rewrote nothing, so `preserves` is trivial.
-/
import proofs.«405246_j49555332661898_4_alg».proof.Defs
import proofs.«405246_j49555332661898_4_alg».proof.Proof.Gen.Kernel
import proofs.«405246_j49555332661898_4_alg».proof.Proof.Gen.Kernel.Skeleton
import proofs.«405246_j49555332661898_4_alg».proof.Proof.Gen.Kernel.Launch
import proofs.«405246_j49555332661898_4_alg».proof.Proof.Gen.Kernel.Points
import proofs.«405246_j49555332661898_4_alg».proof.Proof.Gen.Kernel.Frame
import proofs.«405246_j49555332661898_4_alg».proof.Proof.Gen.KernelIdeal
import proofs.«405246_j49555332661898_4_alg».proof.Proof.Gen.KernelIdeal.Skeleton
import proofs.«405246_j49555332661898_4_alg».proof.Proof.Gen.KernelIdeal.Launch
import proofs.«405246_j49555332661898_4_alg».proof.Proof.Gen.KernelIdeal.Points
import proofs.«405246_j49555332661898_4_alg».proof.Proof.Gen.KernelIdeal.Frame
import proofs.«405246_j49555332661898_4_alg».proof.Proof.Gen.ReferenceIdeal
import proofs.«405246_j49555332661898_4_alg».proof.Proof.Gen.Pre_finite_inputs
import proofs.«405246_j49555332661898_4_alg».proof.Proof.RefRun
import proofs.«405246_j49555332661898_4_alg».proof.Proof.RefRead
import proofs.«405246_j49555332661898_4_alg».proof.Proof.Spec
import proofs.«405246_j49555332661898_4_alg».proof.Proof.PreMask
import proofs.«405246_j49555332661898_4_alg».proof.Proof.RefValue
import proofs.«405246_j49555332661898_4_alg».proof.Proof.ArrayValue
import Idealize.ShloMosaic.Adequacy
import Idealize.ShloMosaic.Init

noncomputable section

namespace Cert.Proof

open Idealize.ShloMosaic Idealize.SL.Sem

namespace Claims

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the total of the class losses of arguments that agree: the kernel program at the sum of
    arrangement K, which under 0/1 labels is arrangement R class by class; the reference at the sum of arrangement R. -/
theorem algebraic : Cert.algebraic_KernelIdeal_ReferenceIdeal := by
  intro m ρ m' ρ' hpre hagree
  refine ⟨fun c _ => Cert.PairLoss.total (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩)
      (Cert.KernelIdeal.ArrayValue.run m ρ)
    funext _
    unfold Cert.PairLoss.total
    exact Finset.sum_congr rfl fun k _ =>
      Cert.PairLoss.classK_eq_classR _ _ _ (Cert.Pre_finite_inputs.Mask.labels_01 _ _ _ (hpre c)) k
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v111_eq, Cert.ReferenceIdeal.RefValue.result_eq,
      (hagree c).1, (hagree c).2.1, (hagree c).2.2]
    rfl

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
